-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1536 : Shape := ⟨1, ![1536]⟩
abbrev S1536x512 : Shape := ⟨2, ![1536, 512]⟩
abbrev S9x512 : Shape := ⟨2, ![9, 512]⟩
abbrev S1024x2048 : Shape := ⟨2, ![1024, 2048]⟩
abbrev S1x2048 : Shape := ⟨2, ![1, 2048]⟩
abbrev S9x512x128 : Shape := ⟨3, ![9, 512, 128]⟩
abbrev S9x1x128 : Shape := ⟨3, ![9, 1, 128]⟩
abbrev S_ : Shape := ⟨0, ![]⟩

class Facts : Prop where
  bcast_S_S1536x512 : S_.BroadcastsInDim S1536x512 (![] : Fin 0 → Fin S1536x512.rank)
  reducesTo_S1536x512_S_d0_1 : S1536x512.ReducesTo [0, 1] S_
  h_S_ : 0 < S_.numel
  bcast_S_S9x512 : S_.BroadcastsInDim S9x512 (![] : Fin 0 → Fin S9x512.rank)
  reducesTo_S9x512_S_d0_1 : S9x512.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S9x512x128 : S_.BroadcastsInDim S9x512x128 (![] : Fin 0 → Fin S9x512x128.rank)
  reducesTo_S9x512x128_S_d0_1_2 : S9x512x128.ReducesTo [0, 1, 2] S_
  bcast_S_S9x1x128 : S_.BroadcastsInDim S9x1x128 (![] : Fin 0 → Fin S9x1x128.rank)
  reducesTo_S9x1x128_S_d0_1_2 : S9x1x128.ReducesTo [0, 1, 2] S_
  bcast_S_S1536 : S_.BroadcastsInDim S1536 (![] : Fin 0 → Fin S1536.rank)
  reducesTo_S1536_S_d0 : S1536.ReducesTo [0] S_

variable [Facts]

def fn_part2 {F : FTy → Type} [FloatOps F] (main_arg0 : IVec S1536 32) (main_v33 : IVec S_ 1) : IVec S_ 1 :=
  let main_c_12 : IVec S_ 32 := constantI S_ 32 0#32
  let main_v34 : IVec S1536 32 := broadcastInDim S1536 ![] bcast_S_S1536 main_c_12
  let main_v35 : IVec S1536 1 := cmpi .sge main_arg0 main_v34
  let main_c_13 : IVec S_ 1 := constantI S_ 1 1#1
  let main_v36 : IVec S_ 1 := (fun x v => Host.reduce IntOp.andi x v reducesTo_S1536_S_d0 h_S_) main_v35 main_c_13
  let main_v37 : IVec S_ 1 := andi main_v33 main_v36
  let main_c_14 : IVec S_ 32 := constantI S_ 32 9#32
  let main_v38 : IVec S1536 32 := broadcastInDim S1536 ![] bcast_S_S1536 main_c_14
  let main_v39 : IVec S1536 1 := cmpi .slt main_arg0 main_v38
  let main_c_15 : IVec S_ 1 := constantI S_ 1 1#1
  let main_v40 : IVec S_ 1 := (fun x v => Host.reduce IntOp.andi x v reducesTo_S1536_S_d0 h_S_) main_v39 main_c_15
  let main_v41 : IVec S_ 1 := andi main_v37 main_v40
  main_v41

def fn_part1 {F : FTy → Type} [FloatOps F] (main_arg0 : IVec S1536 32) (main_arg5 : FVec F S1x2048 .f32) (main_arg6 : FVec F S9x512x128 .f32) (main_arg7 : FVec F S9x1x128 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1x2048 .f32 := Host.absf main_arg5
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S9x512x128 .f32 := Host.absf main_arg6
  let main_cst_8 : FVec F S_ .f32 := constant S_ .f32 0x7F800000#32
  let main_v25 : FVec F S9x512x128 .f32 := broadcastInDim S9x512x128 ![] bcast_S_S9x512x128 main_cst_8
  let main_v26 : IVec S9x512x128 1 := cmpf .olt main_v24 main_v25
  let main_c_9 : IVec S_ 1 := constantI S_ 1 1#1
  let main_v27 : IVec S_ 1 := (fun x v => Host.reduce IntOp.andi x v reducesTo_S9x512x128_S_d0_1_2 h_S_) main_v26 main_c_9
  let main_v28 : IVec S_ 1 := andi main_v23 main_v27
  let main_v29 : FVec F S9x1x128 .f32 := Host.absf main_arg7
  let main_cst_10 : FVec F S_ .f32 := constant S_ .f32 0x7F800000#32
  let main_v30 : FVec F S9x1x128 .f32 := broadcastInDim S9x1x128 ![] bcast_S_S9x1x128 main_cst_10
  let main_v31 : IVec S9x1x128 1 := cmpf .olt main_v29 main_v30
  let main_c_11 : IVec S_ 1 := constantI S_ 1 1#1
  let main_v32 : IVec S_ 1 := (fun x v => Host.reduce IntOp.andi x v reducesTo_S9x1x128_S_d0_1_2 h_S_) main_v31 main_c_11
  let main_v33 : IVec S_ 1 := andi main_v28 main_v32
  fn_part2 (F := F) main_arg0 main_v33

def fn {F : FTy → Type} [FloatOps F] (main_arg0 : IVec S1536 32) (main_arg1 : FVec F S1536x512 .f32) (main_arg2 : FVec F S1536x512 .f32) (main_arg3 : FVec F S9x512 .f32) (main_arg4 : FVec F S1024x2048 .f32) (main_arg5 : FVec F S1x2048 .f32) (main_arg6 : FVec F S9x512x128 .f32) (main_arg7 : FVec F S9x1x128 .f32) : IVec S_ 1 :=
  let main_v0 : FVec F S1536x512 .f32 := Host.absf main_arg1
  let main_cst : FVec F S_ .f32 := constant S_ .f32 0x7F800000#32
  let main_v1 : FVec F S1536x512 .f32 := broadcastInDim S1536x512 ![] bcast_S_S1536x512 main_cst
  let main_v2 : IVec S1536x512 1 := cmpf .olt main_v0 main_v1
  let main_c : IVec S_ 1 := constantI S_ 1 1#1
  let main_v3 : IVec S_ 1 := (fun x v => Host.reduce IntOp.andi x v reducesTo_S1536x512_S_d0_1 h_S_) main_v2 main_c
  let main_v4 : FVec F S1536x512 .f32 := Host.absf main_arg2
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S9x512 .f32 := Host.absf main_arg3
  let main_cst_2 : FVec F S_ .f32 := constant S_ .f32 0x7F800000#32
  let main_v10 : FVec F S9x512 .f32 := broadcastInDim S9x512 ![] bcast_S_S9x512 main_cst_2
  let main_v11 : IVec S9x512 1 := cmpf .olt main_v9 main_v10
  let main_c_3 : IVec S_ 1 := constantI S_ 1 1#1
  let main_v12 : IVec S_ 1 := (fun x v => Host.reduce IntOp.andi x v reducesTo_S9x512_S_d0_1 h_S_) main_v11 main_c_3
  let main_v13 : IVec S_ 1 := andi main_v8 main_v12
  let main_v14 : FVec F S1024x2048 .f32 := Host.absf main_arg4
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg0 main_arg5 main_arg6 main_arg7 main_v13 main_v16
-- ==== Kernel.lean ====
abbrev S1536 : Shape := ⟨1, ![1536]⟩
abbrev S1536x512 : Shape := ⟨2, ![1536, 512]⟩
abbrev S9x512 : Shape := ⟨2, ![9, 512]⟩
abbrev S1024x2048 : Shape := ⟨2, ![1024, 2048]⟩
abbrev S1x2048 : Shape := ⟨2, ![1, 2048]⟩
abbrev S9x512x128 : Shape := ⟨3, ![9, 512, 128]⟩
abbrev S9x1x128 : Shape := ⟨3, ![9, 1, 128]⟩
abbrev S1536x1 : Shape := ⟨2, ![1536, 1]⟩
abbrev S1536x4 : Shape := ⟨2, ![1536, 4]⟩
abbrev S256x1 : Shape := ⟨2, ![256, 1]⟩
abbrev S256x512 : Shape := ⟨2, ![256, 512]⟩
abbrev S1x512x128 : Shape := ⟨3, ![1, 512, 128]⟩
abbrev S1x1x128 : Shape := ⟨3, ![1, 1, 128]⟩
abbrev S256x4 : Shape := ⟨2, ![256, 4]⟩
abbrev S512x2048 : Shape := ⟨2, ![512, 2048]⟩
abbrev S9x2048 : Shape := ⟨2, ![9, 2048]⟩
abbrev S1x9 : Shape := ⟨2, ![1, 9]⟩
abbrev S256x9 : Shape := ⟨2, ![256, 9]⟩
abbrev S256x2048 : Shape := ⟨2, ![256, 2048]⟩
abbrev S512x128 : Shape := ⟨2, ![512, 128]⟩
abbrev S256x128 : Shape := ⟨2, ![256, 128]⟩
abbrev S1x128 : Shape := ⟨2, ![1, 128]⟩

abbrev nBuf : Space → Nat
  | .hbm => 12
  | .vmem => 17
  | .smem => 0
  | _ => 0

abbrev bufTy : (tb : Table) → Fin (tcTables nBuf tb) → BufTy
  | .hbm, ⟨0, _⟩ => ⟨S1536, .i32⟩
  | .hbm, ⟨1, _⟩ => ⟨S1536x512, .f32⟩
  | .hbm, ⟨2, _⟩ => ⟨S1536x512, .f32⟩
  | .hbm, ⟨3, _⟩ => ⟨S9x512, .f32⟩
  | .hbm, ⟨4, _⟩ => ⟨S1024x2048, .f32⟩
  | .hbm, ⟨5, _⟩ => ⟨S1x2048, .f32⟩
  | .hbm, ⟨6, _⟩ => ⟨S9x512x128, .f32⟩
  | .hbm, ⟨7, _⟩ => ⟨S9x1x128, .f32⟩
  | .hbm, ⟨8, _⟩ => ⟨S1536x1, .i32⟩
  | .hbm, ⟨9, _⟩ => ⟨S1536x4, .f32⟩
  | .hbm, ⟨10, _⟩ => ⟨S1536x512, .f32⟩
  | .hbm, ⟨11, _⟩ => ⟨S1536x512, .f32⟩
  | .local _ .vmem, ⟨0, _⟩ => ⟨S256x1, .i32⟩
  | .local _ .vmem, ⟨1, _⟩ => ⟨S256x1, .i32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S9x512, .f32⟩
  | .local _ .vmem, ⟨7, _⟩ => ⟨S1024x2048, .f32⟩
  | .local _ .vmem, ⟨8, _⟩ => ⟨S1x2048, .f32⟩
  | .local _ .vmem, ⟨9, _⟩ => ⟨S1x512x128, .f32⟩
  | .local _ .vmem, ⟨10, _⟩ => ⟨S1x1x128, .f32⟩
  | .local _ .vmem, ⟨11, _⟩ => ⟨S256x4, .f32⟩
  | .local _ .vmem, ⟨12, _⟩ => ⟨S256x4, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | _, _ => ⟨S1536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S1536_S1536x1 : S1536.ShapeCasts S1536x1
  inb_S1024x2048_S512x2048_0_0 : ∀ a, (![0, 0] : Fin 2 → Nat) a + S512x2048.size a ≤ S1024x2048.size a
  h_S512x2048 : 0 < S512x2048.numel
  bitsLt_bf16_f32 : FTy.bits .bf16 < FTy.bits .f32
  inb_S1024x2048_S512x2048_512_0 : ∀ a, (![512, 0] : Fin 2 → Nat) a + S512x2048.size a ≤ S1024x2048.size a
  inb_S9x512_S9x512_0_0 : ∀ a, (![0, 0] : Fin 2 → Nat) a + S9x512.size a ≤ S9x512.size a
  h_S9x512 : 0 < S9x512.numel
  inb_S1x2048_S1x2048_0_0 : ∀ a, (![0, 0] : Fin 2 → Nat) a + S1x2048.size a ≤ S1x2048.size a
  h_S1x2048 : 0 < S1x2048.numel
  broadcasts_S1x2048_S9x2048 : S1x2048.Broadcasts S9x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S1x9_d1_w32 : S1x9.Iotas .tc 32 [1]
  broadcasts_S256x1_S256x9 : S256x1.Broadcasts S256x9
  broadcasts_S1x9_S256x9 : S1x9.Broadcasts S256x9
  natLt_1_32 : 1 < 32
  inb_S256x512_S256x512_0_0 : ∀ a, (![0, 0] : Fin 2 → Nat) a + S256x512.size a ≤ S256x512.size a
  h_S256x512 : 0 < S256x512.numel
  slices_S256x2048_o0_0_S256x512 : S256x2048.Slices ![0, 0] S256x512
  slices_S256x2048_o0_512_S256x512 : S256x2048.Slices ![0, 512] S256x512
  slices_S256x2048_o0_1024_S256x512 : S256x2048.Slices ![0, 1024] S256x512
  slices_S256x2048_o0_1536_S256x512 : S256x2048.Slices ![0, 1536] S256x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S256x128 : S1x128.Broadcasts S256x128
  slices_S256x128_o0_0_S256x4 : S256x128.Slices ![0, 0] S256x4
  inb_S256x4_S256x4_0_0 : ∀ a, (![0, 0] : Fin 2 → Nat) a + S256x4.size a ≤ S256x4.size a
  h_S256x4 : 0 < S256x4.numel
  dot_S9x512_S512x2048_S9x2048_1_0_0_1_n_n_wf : DotDims.WF S9x512 S512x2048 S9x2048 [1] [0] [0] [1] [] []
  dot_S256x9_S9x2048_S256x2048_1_0_0_1_n_n_wf : DotDims.WF S256x9 S9x2048 S256x2048 [1] [0] [0] [1] [] []
  dot_S256x512_S512x2048_S256x2048_1_0_0_1_n_n_wf : DotDims.WF S256x512 S512x2048 S256x2048 [1] [0] [0] [1] [] []
  dot_S256x512_S512x128_S256x128_1_0_0_1_n_n_wf : DotDims.WF S256x512 S512x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S1536x1.size a
  hwx0_0 : ∀ i : grid0.Coords, EltTy.bits .i32 = 32 ∨ (Rect.block (s := S1536x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S1536x512.size a
  hwx0_1 : ∀ i : grid0.Coords, EltTy.bits .f32 = 32 ∨ (Rect.block (s := S1536x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S1536x512.size a
  hwx0_2 : ∀ i : grid0.Coords, EltTy.bits .f32 = 32 ∨ (Rect.block (s := S1536x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x512.size a ≤ S9x512.size a
  hwx0_3 : ∀ i : grid0.Coords, EltTy.bits .f32 = 32 ∨ (Rect.block (s := S9x512) S9x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .f32 = 32 ∨ (Rect.block (s := S1024x2048) S1024x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 1
  hreads0_6 : ∀ i i' : grid0.Coords, (∀ a, reads0_6 a = true → i a = i' a) → cc0_transform_6 i = cc0_transform_6 i'
  hinb0_6 : ∀ (i : grid0.Coords) a, (cc0_transform_6 i a + 1) * S1x512x128.size a ≤ S9x512x128.size a
  hwx0_6 : ∀ i : grid0.Coords, EltTy.bits .f32 = 32 ∨ (Rect.block (s := S9x512x128) S1x512x128.size (cc0_transform_6 i) (hinb0_6 i)).WholeWords (EltTy.packing .f32)
  hstage0_7 : ∀ j, (stage0_7 j).IsWhole
  nbuf0_7 : grid0.bufCount reads0_7 false = 1
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S9x1x128.size a
  hwx0_7 : ∀ i : grid0.Coords, EltTy.bits .f32 = 32 ∨ (Rect.block (s := S9x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x4.size a ≤ S1536x4.size a
  hwx0_8 : ∀ i : grid0.Coords, EltTy.bits .f32 = 32 ∨ (Rect.block (s := S1536x4) S256x4.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S1536x512.size a
  hwx0_9 : ∀ i : grid0.Coords, EltTy.bits .f32 = 32 ∨ (Rect.block (s := S1536x512) S256x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S1536x512.size a
  hwx0_10 : ∀ i : grid0.Coords, EltTy.bits .f32 = 32 ∨ (Rect.block (s := S1536x512) S256x512.size (cc0_transform_10 i) (hinb0_10 i)).WholeWords (EltTy.packing .f32)

variable [Facts₀]

def dot_S9x512_S512x2048_S9x2048_1_0_0_1_n_n : DotDims S9x512 S512x2048 S9x2048 where
  lhsContracting := [1]
  rhsContracting := [0]
  lhsNonContracting := [0]
  rhsNonContracting := [1]
  lhsBatch := []
  rhsBatch := []
  wf := dot_S9x512_S512x2048_S9x2048_1_0_0_1_n_n_wf
def dot_S256x9_S9x2048_S256x2048_1_0_0_1_n_n : DotDims S256x9 S9x2048 S256x2048 where
  lhsContracting := [1]
  rhsContracting := [0]
  lhsNonContracting := [0]
  rhsNonContracting := [1]
  lhsBatch := []
  rhsBatch := []
  wf := dot_S256x9_S9x2048_S256x2048_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_v0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S9x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512x128.size cc0_transform_6 reads0_6 false false 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x1x128.size cc0_transform_7 reads0_7 false false 1 stage0_7 sem0_7
    hrank0 hreads0_7 hinb0_7 nbuf0_7 (Memref.isWhole_whole _) hwx0_7 hstage0_7

abbrev win0_8 : Pipeline.Window sig grid0 :=
  Pipeline.Window.ofSpec (Memref.whole main_v1_0) S256x4.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_1) S256x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1_2) S256x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1536 : Shape := ⟨1, ![1536]⟩
abbrev S1536x512 : Shape := ⟨2, ![1536, 512]⟩
abbrev S9x512 : Shape := ⟨2, ![9, 512]⟩
abbrev S1024x2048 : Shape := ⟨2, ![1024, 2048]⟩
abbrev S1x2048 : Shape := ⟨2, ![1, 2048]⟩
abbrev S9x512x128 : Shape := ⟨3, ![9, 512, 128]⟩
abbrev S9x1x128 : Shape := ⟨3, ![9, 1, 128]⟩
abbrev S_ : Shape := ⟨0, ![]⟩
abbrev S1536x1 : Shape := ⟨2, ![1536, 1]⟩
abbrev S1 : Shape := ⟨1, ![1]⟩
abbrev S1x1 : Shape := ⟨2, ![1, 1]⟩
abbrev S1536x1024 : Shape := ⟨2, ![1536, 1024]⟩
abbrev S1536x128 : Shape := ⟨2, ![1536, 128]⟩
abbrev S1x512x128 : Shape := ⟨3, ![1, 512, 128]⟩
abbrev S1x1x128 : Shape := ⟨3, ![1, 1, 128]⟩
abbrev S1536x2048 : Shape := ⟨2, ![1536, 2048]⟩
abbrev S512x128 : Shape := ⟨2, ![512, 128]⟩
abbrev S1x128 : Shape := ⟨2, ![1, 128]⟩
abbrev S1536x4 : Shape := ⟨2, ![1536, 4]⟩

abbrev nBuf : Space → Nat
  | .hbm => 38
  | .vmem => 9
  | .smem => 1
  | _ => 0

abbrev bufTy : (tb : Table) → Fin (tcTables nBuf tb) → BufTy
  | .hbm, ⟨0, _⟩ => ⟨S1536, .i32⟩
  | .hbm, ⟨1, _⟩ => ⟨S1536x512, .f32⟩
  | .hbm, ⟨2, _⟩ => ⟨S1536x512, .f32⟩
  | .hbm, ⟨3, _⟩ => ⟨S9x512, .f32⟩
  | .hbm, ⟨4, _⟩ => ⟨S1024x2048, .f32⟩
  | .hbm, ⟨5, _⟩ => ⟨S1x2048, .f32⟩
  | .hbm, ⟨6, _⟩ => ⟨S9x512x128, .f32⟩
  | .hbm, ⟨7, _⟩ => ⟨S9x1x128, .f32⟩
  | .hbm, ⟨8, _⟩ => ⟨S_, .i32⟩
  | .hbm, ⟨9, _⟩ => ⟨S_, .i32⟩
  | .hbm, ⟨10, _⟩ => ⟨S1536, .i32⟩
  | .hbm, ⟨11, _⟩ => ⟨S1536, .i1⟩
  | .hbm, ⟨12, _⟩ => ⟨S_, .i32⟩
  | .hbm, ⟨13, _⟩ => ⟨S1536, .i32⟩
  | .hbm, ⟨14, _⟩ => ⟨S1536, .i32⟩
  | .hbm, ⟨15, _⟩ => ⟨S1536, .i32⟩
  | .hbm, ⟨16, _⟩ => ⟨S1536x1, .i32⟩
  | .hbm, ⟨17, _⟩ => ⟨S1, .i32⟩
  | .hbm, ⟨18, _⟩ => ⟨S_, .i32⟩
  | .hbm, ⟨19, _⟩ => ⟨S1536x1, .i32⟩
  | .hbm, ⟨20, _⟩ => ⟨S1536x1, .i1⟩
  | .hbm, ⟨21, _⟩ => ⟨S1x1, .i32⟩
  | .hbm, ⟨22, _⟩ => ⟨S1536x1, .i32⟩
  | .hbm, ⟨23, _⟩ => ⟨S1536x1, .i1⟩
  | .hbm, ⟨24, _⟩ => ⟨S1536x1, .i1⟩
  | .hbm, ⟨25, _⟩ => ⟨S_, .i1⟩
  | .hbm, ⟨26, _⟩ => ⟨S1536, .i1⟩
  | .hbm, ⟨27, _⟩ => ⟨S1536x512, .f32⟩
  | .hbm, ⟨28, _⟩ => ⟨S1536x512, .i1⟩
  | .hbm, ⟨29, _⟩ => ⟨S_, .f32⟩
  | .hbm, ⟨30, _⟩ => ⟨S1536x512, .f32⟩
  | .hbm, ⟨31, _⟩ => ⟨S1536x512, .f32⟩
  | .hbm, ⟨32, _⟩ => ⟨S1536x1024, .f32⟩
  | .hbm, ⟨33, _⟩ => ⟨S1, .i32⟩
  | .hbm, ⟨34, _⟩ => ⟨S1536x128, .f32⟩
  | .hbm, ⟨35, _⟩ => ⟨S1536x512, .f32⟩
  | .hbm, ⟨36, _⟩ => ⟨S1536x512, .f32⟩
  | .hbm, ⟨37, _⟩ => ⟨S1536x4, .f32⟩
  | .local _ .vmem, ⟨0, _⟩ => ⟨S1536x1024, .f32⟩
  | .local _ .vmem, ⟨1, _⟩ => ⟨S1536x512, .f32⟩
  | .local _ .vmem, ⟨2, _⟩ => ⟨S1024x2048, .f32⟩
  | .local _ .vmem, ⟨3, _⟩ => ⟨S1x2048, .f32⟩
  | .local _ .vmem, ⟨4, _⟩ => ⟨S1x512x128, .f32⟩
  | .local _ .vmem, ⟨5, _⟩ => ⟨S1x1x128, .f32⟩
  | .local _ .vmem, ⟨6, _⟩ => ⟨S1536x128, .f32⟩
  | .local _ .vmem, ⟨7, _⟩ => ⟨S1536x512, .f32⟩
  | .local _ .vmem, ⟨8, _⟩ => ⟨S1536x512, .f32⟩
  | .local _ .smem, ⟨0, _⟩ => ⟨S1, .i32⟩
  | _, _ => ⟨S1536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_call0_c : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_c_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_c_1 : Ref sig .tc := ⟨.hbm, 17, rfl⟩
abbrev main_call0_call0_c_2 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_c_3 : Ref sig .tc := ⟨.hbm, 25, rfl⟩
abbrev main_call0_call0_v12 : Ref sig .tc := ⟨.hbm, 26, rfl⟩
abbrev main_call0_call0_v13 : Ref sig .tc := ⟨.hbm, 27, rfl⟩
abbrev main_call0_call0_v14 : Ref sig .tc := ⟨.hbm, 28, rfl⟩
abbrev main_call0_call0_cst : Ref sig .tc := ⟨.hbm, 29, rfl⟩
abbrev main_call0_call0_v15 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v0_0 : Ref sig .tc := ⟨.hbm, 34, rfl⟩
abbrev main_v0_1 : Ref sig .tc := ⟨.hbm, 35, rfl⟩
abbrev main_v0_2 : Ref sig .tc := ⟨.hbm, 36, rfl⟩
abbrev main_v1 : Ref sig .tc := ⟨.hbm, 37, rfl⟩
abbrev main_call0_v3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_call0_v3.idx], fun | 0 => main_call0_v3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  bcast_S_S1536 : S_.BroadcastsInDim S1536 (![] : Fin 0 → Fin S1536.rank)
  bcast_S1536_S1536x1_0 : S1536.BroadcastsInDim S1536x1 (![0] : Fin 1 → Fin S1536x1.rank)
  bcast_S_S1536x1 : S_.BroadcastsInDim S1536x1 (![] : Fin 0 → Fin S1536x1.rank)
  bcast_S1_S1x1_1 : S1.BroadcastsInDim S1x1 (![1] : Fin 1 → Fin S1x1.rank)
  bcast_S1x1_S1536x1_0_1 : S1x1.BroadcastsInDim S1536x1 (![0, 1] : Fin 2 → Fin S1536x1.rank)
  reducesTo_S1536x1_S1536_d1 : S1536x1.ReducesTo [1] S1536
  h_S_ : 0 < S_.numel
  bcast_S1536_S1536x512_0 : S1536.BroadcastsInDim S1536x512 (![0] : Fin 1 → Fin S1536x512.rank)
  bcast_S_S1536x512 : S_.BroadcastsInDim S1536x512 (![] : Fin 0 → Fin S1536x512.rank)
  concatenates_S1536x512_S1536x512_S1536x1024_d1 : Shape.Concatenates [S1536x512, S1536x512] S1536x1024 1
  shapeCasts_S_S1 : S_.ShapeCasts S1
  inb_S1_S1_0 : ∀ a, (![0] : Fin 1 → Nat) a + S1.size a ≤ S1.size a
  numel1_S1 : S1.numel = 1
  inb_S1536x1024_S1536x1024_0_0 : ∀ a, (![0, 0] : Fin 2 → Nat) a + S1536x1024.size a ≤ S1536x1024.size a
  h_S1536x1024 : 0 < S1536x1024.numel
  shapeCasts_S1536x1024_S1536x1024 : S1536x1024.ShapeCasts S1536x1024
  inb_S1536x512_S1536x512_0_0 : ∀ a, (![0, 0] : Fin 2 → Nat) a + S1536x512.size a ≤ S1536x512.size a
  h_S1536x512 : 0 < S1536x512.numel
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  broadcasts_S1x2048_S1536x2048 : S1x2048.Broadcasts S1536x2048
  slices_S1536x2048_o0_0_S1536x512 : S1536x2048.Slices ![0, 0] S1536x512
  slices_S1536x2048_o0_512_S1536x512 : S1536x2048.Slices ![0, 512] S1536x512
  slices_S1536x2048_o0_1024_S1536x512 : S1536x2048.Slices ![0, 1024] S1536x512
  slices_S1536x2048_o0_1536_S1536x512 : S1536x2048.Slices ![0, 1536] S1536x512
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S1536x128 : S1x128.Broadcasts S1536x128
  inb_S1536x128_S1536x128_0_0 : ∀ a, (![0, 0] : Fin 2 → Nat) a + S1536x128.size a ≤ S1536x128.size a
  h_S1536x128 : 0 < S1536x128.numel
  slices_S1536x128_S1536x4_0_0 : S1536x128.Slices ![0, 0] S1536x4
  gather_S9x512_S1536x1_S1536x512_1_0_n_n_0_1_1512_wf : GatherDims.WF S9x512 S1536x1 S1536x512 [1] [0] [] [0] [] 1 ![1, 512]
  dot_S1536x1024_S1024x2048_S1536x2048_1_0_0_1_n_n_wf : DotDims.WF S1536x1024 S1024x2048 S1536x2048 [1] [0] [0] [1] [] []
  dot_S1536x512_S512x128_S1536x128_1_0_0_1_n_n_wf : DotDims.WF S1536x512 S512x128 S1536x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1536x1024.size a ≤ S1536x1024.size a
  hwx0_0 : ∀ i : grid0.Coords, EltTy.bits .f32 = 32 ∨ (Rect.block (s := S1536x1024) S1536x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .f32 = 32 ∨ (Rect.block (s := S1536x512) S1536x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .f32 = 32 ∨ (Rect.block (s := S1024x2048) S1024x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 1
  hreads0_4 : ∀ {F : FTy → Type} [FloatOps F] (pf : pre0.Contents (Elt F)) (i i' : grid0.Coords), (∀ a, reads0_4 a = true → i a = i' a) → cc0_transform_4 inb_S1_S1_0 numel1_S1 pf i = cc0_transform_4 inb_S1_S1_0 numel1_S1 pf i'
  hstage0_5 : ∀ j, (stage0_5 j).IsWhole
  nbuf0_5 : grid0.bufCount reads0_5 false = 1
  hreads0_5 : ∀ {F : FTy → Type} [FloatOps F] (pf : pre0.Contents (Elt F)) (i i' : grid0.Coords), (∀ a, reads0_5 a = true → i a = i' a) → cc0_transform_5 inb_S1_S1_0 numel1_S1 pf i = cc0_transform_5 inb_S1_S1_0 numel1_S1 pf i'
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1536x128.size a ≤ S1536x128.size a
  hwx0_6 : ∀ i : grid0.Coords, EltTy.bits .f32 = 32 ∨ (Rect.block (s := S1536x128) S1536x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1536x512.size a ≤ S1536x512.size a
  hwx0_7 : ∀ i : grid0.Coords, EltTy.bits .f32 = 32 ∨ (Rect.block (s := S1536x512) S1536x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1536x512.size a ≤ S1536x512.size a
  hwx0_8 : ∀ i : grid0.Coords, EltTy.bits .f32 = 32 ∨ (Rect.block (s := S1536x512) S1536x512.size (cc0_transform_8 i) (hinb0_8 i)).WholeWords (EltTy.packing .f32)

variable [Facts₀]

def gather_S9x512_S1536x1_S1536x512_1_0_n_n_0_1_1512 : GatherDims S9x512 S1536x1 S1536x512 where
  offsetDims := [1]
  collapsedSliceDims := [0]
  operandBatchingDims := []
  startIndicesBatchingDims := []
  startIndexMap := [0]
  indexVectorDim := 1
  sliceSizes := ![1, 512]
  wf := gather_S9x512_S1536x1_S1536x512_1_0_n_n_0_1_1512_wf
def dot_S1536x1024_S1024x2048_S1536x2048_1_0_0_1_n_n : DotDims S1536x1024 S1024x2048 S1536x2048 where
  lhsContracting := [1]
  rhsContracting := [0]
  lhsNonContracting := [0]
  rhsNonContracting := [1]
  lhsBatch := []
  rhsBatch := []
  wf := dot_S1536x1024_S1024x2048_S1536x2048_1_0_0_1_n_n_wf
def dot_S1536x512_S512x128_S1536x128_1_0_0_1_n_n : DotDims S1536x512 S512x128 S1536x128 where
  lhsContracting := [1]
  rhsContracting := [0]
  lhsNonContracting := [0]
  rhsNonContracting := [1]
  lhsBatch := []
  rhsBatch := []
  wf := dot_S1536x512_S512x128_S1536x128_1_0_0_1_n_n_wf

abbrev spec0_0 : Pipeline.WinSpec sig grid0.rank :=
  Pipeline.WinSpec.ofSpec (Memref.whole main_call0_v1) S1536x1024.size reads0_0 false true 1 stage0_0 sem0_0 nbuf0_0 hstage0_0

abbrev spec0_1 : Pipeline.WinSpec sig grid0.rank :=
  Pipeline.WinSpec.ofSpec (Memref.whole main_arg2) S1536x512.size reads0_1 false true 1 stage0_1 sem0_1 nbuf0_1 hstage0_1

abbrev spec0_2 : Pipeline.WinSpec sig grid0.rank :=
  Pipeline.WinSpec.ofSpec (Memref.whole main_arg4) S1024x2048.size reads0_2 false true 1 stage0_2 sem0_2 nbuf0_2 hstage0_2

abbrev spec0_3 : Pipeline.WinSpec sig grid0.rank :=
  Pipeline.WinSpec.ofSpec (Memref.whole main_arg5) S1x2048.size reads0_3 false true 1 stage0_3 sem0_3 nbuf0_3 hstage0_3

abbrev spec0_4 : Pipeline.WinSpec sig grid0.rank :=
  Pipeline.WinSpec.ofSpec (Memref.whole main_arg6) S1x512x128.size reads0_4 false false 1 stage0_4 sem0_4 nbuf0_4 hstage0_4

abbrev spec0_5 : Pipeline.WinSpec sig grid0.rank :=
  Pipeline.WinSpec.ofSpec (Memref.whole main_arg7) S1x1x128.size reads0_5 false false 1 stage0_5 sem0_5 nbuf0_5 hstage0_5

abbrev spec0_6 : Pipeline.WinSpec sig grid0.rank :=
  Pipeline.WinSpec.ofSpec (Memref.whole main_v0_0) S1536x128.size reads0_6 true true 1 stage0_6 sem0_6 nbuf0_6 hstage0_6

abbrev spec0_7 : Pipeline.WinSpec sig grid0.rank :=
  Pipeline.WinSpec.ofSpec (Memref.whole main_v0_1) S1536x512.size reads0_7 true true 1 stage0_7 sem0_7 nbuf0_7 hstage0_7

abbrev spec0_8 : Pipeline.WinSpec sig grid0.rank :=
  Pipeline.WinSpec.ofSpec (Memref.whole main_v0_2) S1536x512.size reads0_8 true true 1 stage0_8 sem0_8 nbuf0_8 hstage0_8

abbrev spec0 : Fin 9 → Pipeline.WinSpec sig grid0.rank := fun | 0 => spec0_0 | 1 => spec0_1 | 2 => spec0_2 | 3 => spec0_3 | 4 => spec0_4 | 5 => spec0_5 | 6 => spec0_6 | 7 => spec0_7 | 8 => spec0_8 | ⟨_ + 9, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | ⟨_ + 9, h⟩ => absurd h (Nat.not_lt.2 (Nat.le_add_left _ _))
abbrev ix0 (pf : pre0.Contents (Elt F)) : (w : Fin 9) → grid0.Coords → Fin (spec0 w).shape.rank → Nat := fun | 0 => cc0_transform_0 | 1 => cc0_transform_1 | 2 => cc0_transform_2 | 3 => cc0_transform_3 | 4 => cc0_transform_4 inb_S1_S1_0 numel1_S1 pf | 5 => cc0_transform_5 inb_S1_S1_0 numel1_S1 pf | 6 => cc0_transform_6 | 7 => cc0_transform_7 | 8 => cc0_transform_8 | ⟨_ + 9, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 pf | 5 => hreads0_5 pf | 6 => hreads0_6 | 7 => hreads0_7 | 8 => hreads0_8 | ⟨_ + 9, h⟩ => absurd h (Nat.not_lt.2 (Nat.le_add_left _ _))
def ok0 (pf : pre0.Contents (Elt F)) : Prop :=
  (∀ i : grid0.Coords, ∃ h : (∀ a, (cc0_transform_4 inb_S1_S1_0 numel1_S1 pf i a + 1) * S1x512x128.size a ≤ S9x512x128.size a), EltTy.bits .f32 = 32 ∨ (Rect.block (s := S9x512x128) S1x512x128.size (cc0_transform_4 inb_S1_S1_0 numel1_S1 pf i) h).WholeWords (EltTy.packing .f32)) ∧
  (∀ i : grid0.Coords, ∃ h : (∀ a, (cc0_transform_5 inb_S1_S1_0 numel1_S1 pf i a + 1) * S1x1x128.size a ≤ S9x1x128.size a), EltTy.bits .f32 = 32 ∨ (Rect.block (s := S9x1x128) S1x1x128.size (cc0_transform_5 inb_S1_S1_0 numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => hinb0_3 | 4 => fun i a => (hok.1 i).elim fun h _ => h a | 5 => fun i a => (hok.2 i).elim fun h _ => h a | 6 => hinb0_6 | 7 => hinb0_7 | 8 => hinb0_8 | ⟨_ + 9, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => hwx0_3 | 4 => fun i => (hok.1 i).elim fun _ h => h | 5 => fun i => (hok.2 i).elim fun _ h => h | 6 => hwx0_6 | 7 => hwx0_7 | 8 => hwx0_8 | ⟨_ + 9, h⟩ => absurd h (Nat.not_lt.2 (Nat.le_add_left _ _))

class Facts : Prop extends Facts₀ where
  harr0 : ∀ w, (spec0 w).arr.IsWhole

variable [Facts]
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Spec.lean ====
/-
  The controller step as one function of the argument arrays, entry by entry, on the extended reals.

  A token id e(p) in [0, 9) selects a row of the embedding table for batch row p. The four gate pre-activations of
  row p are the columns of

    gate p j = (sum over k < 512 of emb(e p, k) * W(k, j)) + (sum over k < 512 of h(p, k) * W(512 + k, j)) + b(0, j),

  that is, the row [emb(e p) | h(p)] of length 1024 against the fused weight, plus the bias. The columns j < 512
  feed the input gate, 512 <= j < 1024 the forget gate, 1024 <= j < 1536 the candidate, 1536 <= j the output gate:

    cx p q = sigma(gate p (512 + q)) * c(p, q) + sigma(gate p q) * tanh(gate p (1024 + q))
    hx p q = sigma(gate p (1536 + q)) * tanh(cx p q)

  and the four logits of row p come from decoder head 2:

    logit p r = 2.5 * tanh(((sum over k < 512 of hx p k * dw(2, k, r)) + db(2, 0, r)) * f32(0.2)).
-/
import Idealize.ShloMosaic.PureOps.Ideal.Laws
import Idealize.ShloMosaic.Lib.ValueIdx

noncomputable section

namespace Cert.Spec

open Idealize.ShloMosaic Idealize.ShloMosaic.ValueIdx

/-- A rank-2 array of extended reals. -/
abbrev A2 (r c : Nat) : Type := FVec Ideal (⟨2, ![r, c]⟩ : Shape) .f32
/-- A rank-3 array of extended reals. -/
abbrev A3 (a b c : Nat) : Type := FVec Ideal (⟨3, ![a, b, c]⟩ : Shape) .f32

/-- Row k of the upper half of the fused weight (the rows that meet the embedding). -/
abbrev lo (k : Fin 512) : Fin 1024 := ⟨k.val, by omega⟩
/-- Row 512 + k of the fused weight (the rows that meet the hidden state). -/
abbrev hi (k : Fin 512) : Fin 1024 := ⟨k.val + 512, by omega⟩
/-- Column q of the input gate. -/
abbrev gI (q : Fin 512) : Fin 2048 := ⟨q.val, by omega⟩
/-- Column q of the forget gate. -/
abbrev gF (q : Fin 512) : Fin 2048 := ⟨q.val + 512, by omega⟩
/-- Column q of the candidate. -/
abbrev gG (q : Fin 512) : Fin 2048 := ⟨q.val + 1024, by omega⟩
/-- Column q of the output gate. -/
abbrev gO (q : Fin 512) : Fin 2048 := ⟨q.val + 1536, by omega⟩
/-- A logit's column inside the 128-wide decoder slab. -/
abbrev lane (r : Fin 4) : Fin 128 := ⟨r.val, by omega⟩

variable (e : Fin 1536 → Fin 9) (h c : A2 1536 512) (emb : A2 9 512) (W : A2 1024 2048) (b : A2 1 2048)
  (dw : A3 9 512 128) (db : A3 9 1 128)

/-- The gate pre-activation of batch row p at column j. -/
def gate (p : Fin 1536) (j : Fin 2048) : EReal :=
  (∑ k : Fin 512, emb (ix2 (e p) k) * W (ix2 (lo k) j)) + (∑ k : Fin 512, h (ix2 p k) * W (ix2 (hi k) j))
    + b (ix2 (0 : Fin 1) j)

/-- The new cell state. -/
def cx (p : Fin 1536) (q : Fin 512) : EReal :=
  Ideal.logistic (gate e h emb W b p (gF q)) * c (ix2 p q)
    + Ideal.logistic (gate e h emb W b p (gI q)) * Ideal.tanh (gate e h emb W b p (gG q))

/-- The new hidden state. -/
def hx (p : Fin 1536) (q : Fin 512) : EReal :=
  Ideal.logistic (gate e h emb W b p (gO q)) * Ideal.tanh (cx e h c emb W b p q)

/-- The decoder's logit r of row p: head 2, scaled by f32(0.2), squashed, scaled by 2.5. -/
def logit (p : Fin 1536) (r : Fin 4) : EReal :=
  Ideal.ofBits .f32 0x40200000#32 * Ideal.tanh (((∑ k : Fin 512, hx e h c emb W b p k * dw (ix3 (2 : Fin 9) k (lane r)))
    + db (ix3 (2 : Fin 9) (0 : Fin 1) (lane r))) * Ideal.ofBits .f32 0x3E4CCCCD#32)

/-- The cell state as an array. -/
def cxA : A2 1536 512 := fun j => cx e h c emb W b (j 0) (j 1)
/-- The hidden state as an array. -/
def hxA : A2 1536 512 := fun j => hx e h c emb W b (j 0) (j 1)
/-- The logits as an array. -/
def logitsA : A2 1536 4 := fun j => logit e h c emb W b dw db (j 0) (j 1)

end Cert.Spec

end
-- ==== Proof.KernelGates.lean ====
import proofs.«139382_g2000601216510222_pallasbulk_1026_5_alg».proof.Proof.Gen.KernelIdeal.Skeleton
import proofs.«139382_g2000601216510222_pallasbulk_1026_5_alg».proof.Proof.LibPlainDot
import proofs.«139382_g2000601216510222_pallasbulk_1026_5_alg».proof.Proof.Spec
import Idealize.ShloMosaic.Lib.Pipeline.Value
import Idealize.ShloMosaic.Lib.ValueLayout

set_option maxRecDepth 16384

noncomputable section

namespace Cert.KernelIdeal.Hand

open Cert.KernelIdeal Cert.KernelIdeal.Gen Idealize.ShloMosaic Idealize.ShloMosaic.ValueIdx

/-- The three matrix products contract the left operand's axis 1 with the right operand's axis 0. -/
private theorem plainE : PlainDot.IsPlain (R := 9) (K := 512) (C := 2048) dot_S9x512_S512x2048_S9x2048_1_0_0_1_n_n :=
  ⟨rfl, rfl, rfl, rfl, rfl, rfl⟩
private theorem plainO : PlainDot.IsPlain (R := 256) (K := 9) (C := 2048) dot_S256x9_S9x2048_S256x2048_1_0_0_1_n_n :=
  ⟨rfl, rfl, rfl, rfl, rfl, rfl⟩
private theorem plainH : PlainDot.IsPlain (R := 256) (K := 512) (C := 2048) dot_S256x512_S512x2048_S256x2048_1_0_0_1_n_n :=
  ⟨rfl, rfl, rfl, rfl, rfl, rfl⟩

/-- Two words below 9 compared for equality, widened and converted: 1 where they agree, 0 elsewhere. -/
private theorem onehot_scalar (a b : Fin 9) :
    (FloatOps.sitofp .f32 ((IntOp.cmpi .eq (BitVec.ofNat 32 a.val) (BitVec.ofNat 32 b.val)).setWidth 32) : Ideal .f32)
      = if b = a then 1 else 0 := by
  show ((((IntOp.cmpi .eq (BitVec.ofNat 32 a.val) (BitVec.ofNat 32 b.val)).setWidth 32).toInt : ℝ) : EReal) = _
  by_cases h : b = a
  · subst h
    have hc : IntOp.cmpi .eq (BitVec.ofNat 32 b.val) (BitVec.ofNat 32 b.val) = 1#1 := by
      simp [IntOp.cmpi]
    have h1 : ((1#1 : BitVec 1).setWidth 32).toInt = 1 := by decide
    rw [hc, if_pos rfl, h1]
    norm_num
  · have hne : BitVec.ofNat 32 a.val ≠ BitVec.ofNat 32 b.val := by
      intro e
      have e' := congrArg BitVec.toNat e
      simp only [BitVec.toNat_ofNat] at e'
      have ha := a.isLt
      have hb := b.isLt
      exact h (Fin.ext (by omega))
    have hc : IntOp.cmpi .eq (BitVec.ofNat 32 a.val) (BitVec.ofNat 32 b.val) = 0#1 := by
      simp [IntOp.cmpi, beq_eq_false_iff_ne.mpr hne]
    have h0 : ((0#1 : BitVec 1).setWidth 32).toInt = 0 := by decide
    rw [hc, if_neg h, h0]
    norm_num

/-- The one-hot matrix read at (p, k): 1 in the column of row p's token, 0 in the other columns. -/
private theorem onehot_apply (v11 : Vec Ideal S256x1 .i32) (p : Fin 256) (k ep : Fin 9)
    (hep : v11 (ix2 p (0 : Fin 1)) = BitVec.ofNat 32 ep.val) :
    (sitofp .f32 (extui 32 (cmpi .eq
        (broadcastTo S256x9 (shapeCast S256x1 v11 shapeCasts_S256x1_S256x1) broadcasts_S256x1_S256x9)
        (broadcastTo S256x9 (iota .tc S1x9 32 [1] iota_S1x9_d1_w32) broadcasts_S1x9_S256x9)) natLt_1_32)
      : FVec Ideal S256x9 .f32) (ix2 p k) = if k = ep then 1 else 0 := by
  have hl : broadcastTo S256x9 (shapeCast S256x1 v11 shapeCasts_S256x1_S256x1) broadcasts_S256x1_S256x9 (ix2 p k)
      = BitVec.ofNat 32 ep.val := by
    rw [shapeCast_self]
    refine (broadcastTo_apply v11 broadcasts_S256x1_S256x9 (ix2 p k) (ix2 p (0 : Fin 1)) fun a => ?_).trans hep
    match a with
    | ⟨0, _⟩ => rfl
    | ⟨1, _⟩ => rfl
  have hr : broadcastTo S256x9 (iota .tc S1x9 32 [1] iota_S1x9_d1_w32) broadcasts_S1x9_S256x9 (ix2 p k)
      = BitVec.ofNat 32 k.val := by
    refine (broadcastTo_1b_ab_apply _ broadcasts_S1x9_S256x9 p k).trans ?_
    exact iota_single_apply .tc S1x9 32 1 iota_S1x9_d1_w32 (ix2 (0 : Fin 1) k)
  rw [sitofp_apply, extui_apply]
  show (FloatOps.sitofp .f32 ((IntOp.cmpi .eq
      (broadcastTo S256x9 (shapeCast S256x1 v11 shapeCasts_S256x1_S256x1) broadcasts_S256x1_S256x9 (ix2 p k))
      (broadcastTo S256x9 (iota .tc S1x9 32 [1] iota_S1x9_d1_w32) broadcasts_S1x9_S256x9 (ix2 p k))).setWidth 32) : Ideal .f32) = _
  rw [hl, hr]
  exact onehot_scalar ep k

/-- The gate pre-activations of one 256-row tile, read at (p, j). -/
theorem gates_apply (v0 v2 : Vec Ideal S512x2048 .f32) (v4 : Vec Ideal S9x512 .f32) (v7 : Vec Ideal S1x2048 .f32)
    (v11 : Vec Ideal S256x1 .i32) (v21 : Vec Ideal S256x512 .f32) (p : Fin 256) (j : Fin 2048) (ep : Fin 9)
    (hep : v11 (ix2 p (0 : Fin 1)) = BitVec.ofNat 32 ep.val) :
    k0_pay2 (F := Ideal) v0 v2 v4 v7 v11 v21 (ix2 p j)
      = ((∑ k : Fin 512, v4 (ix2 ep k) * v0 (ix2 k j)) + v7 (ix2 (0 : Fin 1) j))
          + ∑ k : Fin 512, v21 (ix2 p k) * v2 (ix2 k j) := by
  unfold k0_pay2
  rw [addf_apply]
  refine (congrArg₂ (fun a b : EReal => a + b)
      (PlainDot.matmul_zero_apply plainO none _ _ p j)
      (PlainDot.matmul_zero_apply plainH none _ _ p j)).trans ?_
  refine congrArg₂ (fun a b : EReal => a + b) ?_ rfl
  rw [Finset.sum_eq_single ep]
  · rw [truncf_apply, onehot_apply v11 p ep ep hep, if_pos rfl, one_mul, truncf_apply, addf_apply]
    refine congrArg₂ (fun a b : EReal => a + b) ((PlainDot.matmul_zero_apply plainE none _ _ ep j).trans rfl) ?_
    exact broadcastTo_1b_ab_apply v7 broadcasts_S1x2048_S9x2048 ep j
  · intro k _ hk
    rw [truncf_apply, onehot_apply v11 p k ep hep, if_neg hk, zero_mul]
  · intro h
    exact absurd (Finset.mem_univ ep) h

end Cert.KernelIdeal.Hand

end
-- ==== Proof.KernelLogits.lean ====
import proofs.«139382_g2000601216510222_pallasbulk_1026_5_alg».proof.Proof.Gen.KernelIdeal.Skeleton
import proofs.«139382_g2000601216510222_pallasbulk_1026_5_alg».proof.Proof.LibPlainDot
import proofs.«139382_g2000601216510222_pallasbulk_1026_5_alg».proof.Proof.Spec
import Idealize.ShloMosaic.Lib.Pipeline.Value
import Idealize.ShloMosaic.Lib.ValueLayout

set_option maxRecDepth 16384

noncomputable section

namespace Cert.KernelIdeal.Hand

open Cert.KernelIdeal Cert.KernelIdeal.Gen Idealize.ShloMosaic Idealize.ShloMosaic.ValueIdx

/-- The decoder's matrix product is a plain row-by-column one. -/
private theorem dot_plain : PlainDot.IsPlain (R := 256) (K := 512) (C := 128) dot_S256x512_S512x128_S256x128_1_0_0_1_n_n :=
  ⟨rfl, rfl, rfl, rfl, rfl, rfl⟩

/-- The logits of one 256-row tile, read at (p, r). -/
theorem logits_apply (v39 : FVec Ideal S256x512 .bf16) (v40 : Vec Ideal S1x512x128 .f32) (v44 : Vec Ideal S1x1x128 .f32)
    (p : Fin 256) (r : Fin 4) :
    k0_pay1 (F := Ideal) v39 v40 v44 (ix2 p r)
      = Ideal.ofBits .f32 0x40200000#32 * Ideal.tanh (((∑ k : Fin 512, v39 (ix2 p k) * v40 (ix3 (0 : Fin 1) k (Spec.lane r)))
          + v44 (ix3 (0 : Fin 1) (0 : Fin 1) (Spec.lane r))) * Ideal.ofBits .f32 0x3E4CCCCD#32) := by
  unfold k0_pay1
  -- the cut at offset (0, 0) reads column r of the 128-wide slab
  rw [slice2_axis1_apply 0 _ _ p r (Spec.lane r) (Nat.zero_add _).symm]
  -- the elementwise operations, entry by entry
  rw [mulf_apply, broadcast_apply]
  show _ * Ideal.tanh (_ : EReal) = _
  rw [mulf_apply, broadcast_apply, addf_apply]
  -- the product into the zero accumulator is the plain sum over the contracted axis
  simp only [matmul]
  rw [PlainDot.matmul_zero_apply dot_plain]
  -- the bias row, broadcast over the 256 rows
  rw [broadcastTo_1b_ab_apply, shapeCast_1ab_ab_apply]
  refine congrArg (fun z => _ * Ideal.tanh ((z + _) * _)) (Finset.sum_congr rfl fun k _ => ?_)
  rw [truncf_apply, shapeCast_1ab_ab_apply]

end Cert.KernelIdeal.Hand

end
-- ==== Proof.KernelReads.lean ====
import proofs.«139382_g2000601216510222_pallasbulk_1026_5_alg».proof.Proof.Gen.KernelIdeal.Value
import proofs.«139382_g2000601216510222_pallasbulk_1026_5_alg».proof.Proof.Spec
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

/-- The batch row that row p of tile t is: tiles are 256 consecutive rows. -/
def row (t : Fin cfg0.N) (p : Fin 256) : Fin 1536 :=
  ⟨256 * t.val + p.val, by have ht : t.val < 6 := lt_of_lt_of_eq t.isLt N_0; have hp := p.isLt; omega⟩

theorem row_val (t : Fin cfg0.N) (p : Fin 256) : (row t p).val = 256 * t.val + p.val := rfl

/-- The printed index maps, decided over the six grid points: windows 0, 1, 2 sit at block (t, 0); windows 3, 4, 5 at
    block (0, 0); windows 6, 7 at block (2, 0, 0). -/
private theorem idx_move : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0))

private theorem idx_fixed : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0))

private theorem idx_head : ∀ t : Fin cfg0.N,
    (win0_6.index t (0 : Fin 3) = 2 ∧ win0_6.index t (1 : Fin 3) = 0 ∧ win0_6.index t (2 : Fin 3) = 0)
    ∧ (win0_7.index t (0 : Fin 3) = 2 ∧ win0_7.index t (1 : Fin 3) = 0 ∧ win0_7.index t (2 : Fin 3) = 0) :=
  (by decide +kernel : ∀ t : Fin grid0.N,
    (win0_6.index t (0 : Fin 3) = 2 ∧ win0_6.index t (1 : Fin 3) = 0 ∧ win0_6.index t (2 : Fin 3) = 0)
    ∧ (win0_7.index t (0 : Fin 3) = 2 ∧ win0_7.index t (1 : Fin 3) = 0 ∧ win0_7.index t (2 : Fin 3) = 0))

variable (m : (ℓ : Loc nD τ sig) → Buf (Elt Ideal) ℓ) (c : Dev nD) (t : Fin cfg0.N)

/-- The token ids the body loads at tile t are rows 256 t, …, 256 t + 255 of the token array (reshaped to a column
    by the host before the region). -/
theorem ld_tok (p : Fin 256) :
    View.ld (iblk m c 0 t) r0_4 (ix2 p (0 : Fin 1)) = (m ((c : Thread nD τ).loc main_arg0)) (ix1 (row t p)) := by
  obtain ⟨⟨e0, e1⟩, -, -⟩ := idx_move t
  -- the column the host made of the token array before the region
  have e : (V m c main_v0 : S1536x1.Idx → Elt Ideal .i32)
      = shapeCast S1536x1 (m ((c : Thread nD τ).loc main_arg0)) shapeCasts_S1536_S1536x1 := by
    dsimp only [Gen.V, Gen.hostOps0]; after_results; rfl
  -- the block's row p is the column's row 256 t + p
  have h1 : View.ld (iblk m c 0 t) r0_4 (ix2 p (0 : Fin 1)) = V m c main_v0 (ix2 (row t p) (0 : Fin 1)) := by
    show V m c main_v0 (((cfg0.win 0).blk t).view.emb (r0_4.emb (ix2 p (0 : Fin 1)))) = V m c main_v0 (ix2 (row t p) (0 : Fin 1))
    refine congrArg _ (funext fun a => Fin.ext ?_)
    match a with
    | ⟨0, _⟩ => show win0_0.index t (0 : Fin 2) * 256 + 1 * (0 + 1 * p.val) = 256 * t.val + p.val; omega
    | ⟨1, _⟩ => show win0_0.index t (1 : Fin 2) * 1 + 1 * (0 + 1 * 0) = 0; omega
  rw [h1, e]
  -- row-major positions: i in [1536] is (i, 0) in [1536, 1]
  exact shapeCast_apply (s := S1536) (t := S1536x1) _ _ _ _ (by
    show (S1536.rowMajor (ix1 (row t p))).val = (S1536x1.rowMajor (ix2 (row t p) (0 : Fin 1))).val
    rw [Shape.rowMajor_val_two, Shape.rowMajor_val_one]
    show (row t p).val = (row t p).val * 1 + 0
    omega)

/-- The hidden-state tile. -/
theorem ld_h (p : Fin 256) (k : Fin 512) :
    View.ld (iblk m c 1 t) r0_5 (ix2 p k) = (m ((c : Thread nD τ).loc main_arg1)) (ix2 (row t p) k) := by
  obtain ⟨-, ⟨e0, e1⟩, -⟩ := idx_move t
  rw [← V_main_arg1 m c]
  show V m c main_arg1 (((cfg0.win 1).blk t).view.emb (r0_5.emb (ix2 p k))) = V m c main_arg1 (ix2 (row t p) k)
  refine congrArg _ (funext fun a => Fin.ext ?_)
  match a with
  | ⟨0, _⟩ => show win0_1.index t (0 : Fin 2) * 256 + 1 * (0 + 1 * p.val) = 256 * t.val + p.val; omega
  | ⟨1, _⟩ => show win0_1.index t (1 : Fin 2) * 512 + 1 * (0 + 1 * k.val) = k.val; omega

/-- The cell-state tile. -/
theorem ld_c (p : Fin 256) (k : Fin 512) :
    View.ld (iblk m c 2 t) r0_5 (ix2 p k) = (m ((c : Thread nD τ).loc main_arg2)) (ix2 (row t p) k) := by
  obtain ⟨-, -, ⟨e0, e1⟩⟩ := idx_move t
  rw [← V_main_arg2 m c]
  show V m c main_arg2 (((cfg0.win 2).blk t).view.emb (r0_5.emb (ix2 p k))) = V m c main_arg2 (ix2 (row t p) k)
  refine congrArg _ (funext fun a => Fin.ext ?_)
  match a with
  | ⟨0, _⟩ => show win0_2.index t (0 : Fin 2) * 256 + 1 * (0 + 1 * p.val) = 256 * t.val + p.val; omega
  | ⟨1, _⟩ => show win0_2.index t (1 : Fin 2) * 512 + 1 * (0 + 1 * k.val) = k.val; omega

/-- The embedding table, whole at every tile. -/
theorem ld_emb (a : Fin 9) (k : Fin 512) :
    View.ld (iblk m c 3 t) r0_2 (ix2 a k) = (m ((c : Thread nD τ).loc main_arg3)) (ix2 a k) := by
  obtain ⟨⟨e0, e1⟩, -, -⟩ := idx_fixed t
  rw [← V_main_arg3 m c]
  show V m c main_arg3 (((cfg0.win 3).blk t).view.emb (r0_2.emb (ix2 a k))) = V m c main_arg3 (ix2 a k)
  refine congrArg _ (funext fun ax => Fin.ext ?_)
  match ax with
  | ⟨0, _⟩ => show win0_3.index t (0 : Fin 2) * 9 + 1 * (0 + 1 * a.val) = a.val; omega
  | ⟨1, _⟩ => show win0_3.index t (1 : Fin 2) * 512 + 1 * (0 + 1 * k.val) = k.val; omega

/-- The upper 512 rows of the fused weight. -/
theorem ld_wlo (k : Fin 512) (j : Fin 2048) :
    View.ld (iblk m c 4 t) r0_0 (ix2 k j) = (m ((c : Thread nD τ).loc main_arg4)) (ix2 (Spec.lo k) j) := by
  obtain ⟨-, ⟨e0, e1⟩, -⟩ := idx_fixed t
  rw [← V_main_arg4 m c]
  show V m c main_arg4 (((cfg0.win 4).blk t).view.emb (r0_0.emb (ix2 k j))) = V m c main_arg4 (ix2 (Spec.lo k) j)
  refine congrArg _ (funext fun a => Fin.ext ?_)
  match a with
  | ⟨0, _⟩ => show win0_4.index t (0 : Fin 2) * 1024 + 1 * (0 + 1 * k.val) = k.val; omega
  | ⟨1, _⟩ => show win0_4.index t (1 : Fin 2) * 2048 + 1 * (0 + 1 * j.val) = j.val; omega

/-- The lower 512 rows of the fused weight. -/
theorem ld_whi (k : Fin 512) (j : Fin 2048) :
    View.ld (iblk m c 4 t) r0_1 (ix2 k j) = (m ((c : Thread nD τ).loc main_arg4)) (ix2 (Spec.hi k) j) := by
  obtain ⟨-, ⟨e0, e1⟩, -⟩ := idx_fixed t
  rw [← V_main_arg4 m c]
  show V m c main_arg4 (((cfg0.win 4).blk t).view.emb (r0_1.emb (ix2 k j))) = V m c main_arg4 (ix2 (Spec.hi k) j)
  refine congrArg _ (funext fun a => Fin.ext ?_)
  match a with
  | ⟨0, _⟩ => show win0_4.index t (0 : Fin 2) * 1024 + 1 * (512 + 1 * k.val) = k.val + 512; omega
  | ⟨1, _⟩ => show win0_4.index t (1 : Fin 2) * 2048 + 1 * (0 + 1 * j.val) = j.val; omega

/-- The gate bias. -/
theorem ld_b (j : Fin 2048) :
    View.ld (iblk m c 5 t) r0_3 (ix2 (0 : Fin 1) j) = (m ((c : Thread nD τ).loc main_arg5)) (ix2 (0 : Fin 1) j) := by
  obtain ⟨-, -, ⟨e0, e1⟩⟩ := idx_fixed t
  rw [← V_main_arg5 m c]
  show V m c main_arg5 (((cfg0.win 5).blk t).view.emb (r0_3.emb (ix2 (0 : Fin 1) j))) = V m c main_arg5 (ix2 (0 : Fin 1) j)
  refine congrArg _ (funext fun a => Fin.ext ?_)
  match a with
  | ⟨0, _⟩ => show win0_5.index t (0 : Fin 2) * 1 + 1 * (0 + 1 * 0) = 0; omega
  | ⟨1, _⟩ => show win0_5.index t (1 : Fin 2) * 2048 + 1 * (0 + 1 * j.val) = j.val; omega

/-- The decoder weight the body loads is head 2's slab. -/
theorem ld_dw (k : Fin 512) (l : Fin 128) :
    View.ld (iblk m c 6 t) r0_6 (ix3 (0 : Fin 1) k l) = (m ((c : Thread nD τ).loc main_arg6)) (ix3 (2 : Fin 9) k l) := by
  obtain ⟨⟨e0, e1, e2⟩, -⟩ := idx_head t
  rw [← V_main_arg6 m c]
  show V m c main_arg6 (((cfg0.win 6).blk t).view.emb (r0_6.emb (ix3 (0 : Fin 1) k l))) = V m c main_arg6 (ix3 (2 : Fin 9) k l)
  refine congrArg _ (funext fun a => Fin.ext ?_)
  match a with
  | ⟨0, _⟩ => show win0_6.index t (0 : Fin 3) * 1 + 1 * (0 + 1 * 0) = 2; omega
  | ⟨1, _⟩ => show win0_6.index t (1 : Fin 3) * 512 + 1 * (0 + 1 * k.val) = k.val; omega
  | ⟨2, _⟩ => show win0_6.index t (2 : Fin 3) * 128 + 1 * (0 + 1 * l.val) = l.val; omega

/-- The decoder bias the body loads is head 2's row. -/
theorem ld_db (l : Fin 128) :
    View.ld (iblk m c 7 t) r0_7 (ix3 (0 : Fin 1) (0 : Fin 1) l) = (m ((c : Thread nD τ).loc main_arg7)) (ix3 (2 : Fin 9) (0 : Fin 1) l) := by
  obtain ⟨-, ⟨e0, e1, e2⟩⟩ := idx_head t
  rw [← V_main_arg7 m c]
  show V m c main_arg7 (((cfg0.win 7).blk t).view.emb (r0_7.emb (ix3 (0 : Fin 1) (0 : Fin 1) l))) = V m c main_arg7 (ix3 (2 : Fin 9) (0 : Fin 1) l)
  refine congrArg _ (funext fun a => Fin.ext ?_)
  match a with
  | ⟨0, _⟩ => show win0_7.index t (0 : Fin 3) * 1 + 1 * (0 + 1 * 0) = 2; omega
  | ⟨1, _⟩ => show win0_7.index t (1 : Fin 3) * 1 + 1 * (0 + 1 * 0) = 0; omega
  | ⟨2, _⟩ => show win0_7.index t (2 : Fin 3) * 128 + 1 * (0 + 1 * l.val) = l.val; omega

end Cert.KernelIdeal.Hand

end
-- ==== Proof.KernelBlocks.lean ====
import proofs.«139382_g2000601216510222_pallasbulk_1026_5_alg».proof.Proof.Gen.KernelIdeal.Value
import proofs.«139382_g2000601216510222_pallasbulk_1026_5_alg».proof.Proof.KernelGates
import proofs.«139382_g2000601216510222_pallasbulk_1026_5_alg».proof.Proof.KernelLogits
import proofs.«139382_g2000601216510222_pallasbulk_1026_5_alg».proof.Proof.KernelReads

set_option maxRecDepth 16384

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx

variable (m : (ℓ : Loc nD τ sig) → Buf (Elt Ideal) ℓ) (ρ : Dev nD → PrngReg) (e : Fin 1536 → Fin 9)

/-- The gate pre-activations the body computes at tile t, read at (p, j), are the specification's gate of batch row 256 t + p. -/
private theorem gate_tile (c : Dev nD) (t : Fin cfg0.N)
    (he : ∀ p : Fin 1536, m ((c : Thread nD τ).loc main_arg0) (ix1 p) = BitVec.ofNat 32 (e p).val) (p : Fin 256) (j : Fin 2048) :
    k0_pay2 (F := Ideal) (View.ld (iblk m c 4 t) r0_0) (View.ld (iblk m c 4 t) r0_1) (View.ld (iblk m c 3 t) r0_2)
        (View.ld (iblk m c 5 t) r0_3) (View.ld (iblk m c 0 t) r0_4) (View.ld (iblk m c 1 t) r0_5) (ix2 p j)
      = Spec.gate e (m ((c : Thread nD τ).loc main_arg1)) (m ((c : Thread nD τ).loc main_arg3))
          (m ((c : Thread nD τ).loc main_arg4)) (m ((c : Thread nD τ).loc main_arg5)) (row t p) j := by
  refine (gates_apply (View.ld (iblk m c 4 t) r0_0) (View.ld (iblk m c 4 t) r0_1) (View.ld (iblk m c 3 t) r0_2)
        (View.ld (iblk m c 5 t) r0_3) (View.ld (iblk m c 0 t) r0_4) (View.ld (iblk m c 1 t) r0_5) p j (e (row t p))
        ((ld_tok m c t p).trans (he (row t p)))).trans ?_
  unfold Spec.gate
  rw [add_right_comm]
  congr 1
  · congr 1
    · exact Finset.sum_congr rfl fun k _ => by rw [ld_emb m c t, ld_wlo m c t]
    · exact Finset.sum_congr rfl fun k _ => by rw [ld_h m c t, ld_whi m c t]
  · exact ld_b m c t j

private theorem offs_zero : (![0, 0] : Fin 2 → Nat) = fun _ => 0 := funext fun a => match a with | ⟨0, _⟩ => rfl | ⟨1, _⟩ => rfl

/-- The cell-state block at (p, q): forget gate times the old cell state plus input gate times the candidate, each gate
    read in its own 512-column band of the pre-activations. -/
private theorem cellBlock_apply (P0 P1 : Vec Ideal S512x2048 .f32) (P2 : Vec Ideal S9x512 .f32) (P3 : Vec Ideal S1x2048 .f32) (P4 : Vec Ideal S256x1 .i32) (P5 P6 : Vec Ideal S256x512 .f32) (p : Fin 256) (q : Fin 512) :
    E10 P0 P1 P2 P3 P4 P5 P6 (ix2 p q)
      = Ideal.logistic (k0_pay2 (F := Ideal) P0 P1 P2 P3 P4 P5 (ix2 p (Spec.gF q))) * P6 (ix2 p q)
        + Ideal.logistic (k0_pay2 (F := Ideal) P0 P1 P2 P3 P4 P5 (ix2 p (Spec.gI q))) * Ideal.tanh (k0_pay2 (F := Ideal) P0 P1 P2 P3 P4 P5 (ix2 p (Spec.gG q))) := by
  have i0 : ix10_0 (ix2 p q) = ix2 p (Spec.gF q) := funext fun a => match a with | ⟨0, _⟩ => rfl | ⟨1, _⟩ => rfl
  have i1 : ix10_1 (ix2 p q) = ix2 p q := funext fun a => match a with | ⟨0, _⟩ => rfl | ⟨1, _⟩ => rfl
  have i2 : ix10_2 (ix2 p q) = ix2 p (Spec.gI q) := funext fun a => match a with | ⟨0, _⟩ => rfl | ⟨1, _⟩ => rfl
  have i3 : ix10_3 (ix2 p q) = ix2 p (Spec.gG q) := funext fun a => match a with | ⟨0, _⟩ => rfl | ⟨1, _⟩ => rfl
  show FloatOps.addf (FloatOps.mulf (FloatOps.logistic (k0_pay2 (F := Ideal) P0 P1 P2 P3 P4 P5 (ix10_0 (ix2 p q)))) (P6 (ix10_1 (ix2 p q))))
      (FloatOps.mulf (FloatOps.logistic (k0_pay2 (F := Ideal) P0 P1 P2 P3 P4 P5 (ix10_2 (ix2 p q)))) (FloatOps.tanh (k0_pay2 (F := Ideal) P0 P1 P2 P3 P4 P5 (ix10_3 (ix2 p q))))) = _
  rw [i0, i1, i2, i3]
  rfl

/-- The hidden-state block at (p, q): output gate times the squashed new cell state. -/
private theorem hiddenBlock_apply (P0 P1 : Vec Ideal S512x2048 .f32) (P2 : Vec Ideal S9x512 .f32) (P3 : Vec Ideal S1x2048 .f32) (P4 : Vec Ideal S256x1 .i32) (P5 P6 : Vec Ideal S256x512 .f32) (p : Fin 256) (q : Fin 512) :
    E9 P0 P1 P2 P3 P4 P5 P6 (ix2 p q)
      = Ideal.logistic (k0_pay2 (F := Ideal) P0 P1 P2 P3 P4 P5 (ix2 p (Spec.gO q)))
        * Ideal.tanh (Ideal.logistic (k0_pay2 (F := Ideal) P0 P1 P2 P3 P4 P5 (ix2 p (Spec.gF q))) * P6 (ix2 p q)
            + Ideal.logistic (k0_pay2 (F := Ideal) P0 P1 P2 P3 P4 P5 (ix2 p (Spec.gI q))) * Ideal.tanh (k0_pay2 (F := Ideal) P0 P1 P2 P3 P4 P5 (ix2 p (Spec.gG q)))) := by
  have i0 : ix9_0 (ix2 p q) = ix2 p (Spec.gO q) := funext fun a => match a with | ⟨0, _⟩ => rfl | ⟨1, _⟩ => rfl
  have i1 : ix9_1 (ix2 p q) = ix2 p (Spec.gF q) := funext fun a => match a with | ⟨0, _⟩ => rfl | ⟨1, _⟩ => rfl
  have i2 : ix9_2 (ix2 p q) = ix2 p q := funext fun a => match a with | ⟨0, _⟩ => rfl | ⟨1, _⟩ => rfl
  have i3 : ix9_3 (ix2 p q) = ix2 p (Spec.gI q) := funext fun a => match a with | ⟨0, _⟩ => rfl | ⟨1, _⟩ => rfl
  have i4 : ix9_4 (ix2 p q) = ix2 p (Spec.gG q) := funext fun a => match a with | ⟨0, _⟩ => rfl | ⟨1, _⟩ => rfl
  show FloatOps.mulf (FloatOps.logistic (k0_pay2 (F := Ideal) P0 P1 P2 P3 P4 P5 (ix9_0 (ix2 p q))))
      (FloatOps.tanh (FloatOps.addf (FloatOps.mulf (FloatOps.logistic (k0_pay2 (F := Ideal) P0 P1 P2 P3 P4 P5 (ix9_1 (ix2 p q)))) (P6 (ix9_2 (ix2 p q))))
        (FloatOps.mulf (FloatOps.logistic (k0_pay2 (F := Ideal) P0 P1 P2 P3 P4 P5 (ix9_3 (ix2 p q)))) (FloatOps.tanh (k0_pay2 (F := Ideal) P0 P1 P2 P3 P4 P5 (ix9_4 (ix2 p q))))))) = _
  rw [i0, i1, i2, i3, i4]
  rfl

/-- The hidden state the body computes is the hidden-state block, index by index. -/
private theorem hidden_pay_apply (P0 P1 : Vec Ideal S512x2048 .f32) (P2 : Vec Ideal S9x512 .f32) (P3 : Vec Ideal S1x2048 .f32) (P4 : Vec Ideal S256x1 .i32) (P5 P6 : Vec Ideal S256x512 .f32) (y : S256x512.Idx) :
    k0_pay4 (F := Ideal) P0 P1 P2 P3 P4 P5 P6 y = E9 P0 P1 P2 P3 P4 P5 P6 y := by
  have h := canon9_eq P0 P1 P2 P3 P4 P5 P6 y
  rw [View.canon_unit_zero offs_zero] at h
  exact h

/-- Its narrowing to bf16 is the identity on extended reals. -/
private theorem hidden_narrow_apply (P0 P1 : Vec Ideal S512x2048 .f32) (P2 : Vec Ideal S9x512 .f32) (P3 : Vec Ideal S1x2048 .f32) (P4 : Vec Ideal S256x1 .i32) (P5 P6 : Vec Ideal S256x512 .f32) (y : S256x512.Idx) :
    k0_pay5 (F := Ideal) P0 P1 P2 P3 P4 P5 P6 y = k0_pay4 (F := Ideal) P0 P1 P2 P3 P4 P5 P6 y := rfl

/-- The cell-state tile the body leaves at point t, read at (p, q), is the specification's cell state of batch row 256 t + p. -/
private theorem cx_tile (c : Dev nD) (t : Fin cfg0.N) (he : ∀ p : Fin 1536, m ((c : Thread nD τ).loc main_arg0) (ix1 p) = BitVec.ofNat 32 (e p).val) (p : Fin 256) (q : Fin 512) :
    out0_10 (F := Ideal) (iblk m c 0 t) (iblk m c 1 t) (iblk m c 2 t) (iblk m c 3 t) (iblk m c 4 t) (iblk m c 5 t) (iblk m c 6 t) (iblk m c 7 t) (ix2 p q)
      = Spec.cx e (m ((c : Thread nD τ).loc main_arg1)) (m ((c : Thread nD τ).loc main_arg2)) (m ((c : Thread nD τ).loc main_arg3)) (m ((c : Thread nD τ).loc main_arg4)) (m ((c : Thread nD τ).loc main_arg5)) (row t p) q := by
  unfold out0_10
  refine (canon10_eq (F := Ideal) (View.ld (iblk m c 4 t) r0_0) (View.ld (iblk m c 4 t) r0_1) (View.ld (iblk m c 3 t) r0_2) (View.ld (iblk m c 5 t) r0_3) (View.ld (iblk m c 0 t) r0_4) (View.ld (iblk m c 1 t) r0_5) (View.ld (iblk m c 2 t) r0_5) (ix2 p q)).trans ?_
  refine (cellBlock_apply (View.ld (iblk m c 4 t) r0_0) (View.ld (iblk m c 4 t) r0_1) (View.ld (iblk m c 3 t) r0_2) (View.ld (iblk m c 5 t) r0_3) (View.ld (iblk m c 0 t) r0_4) (View.ld (iblk m c 1 t) r0_5) (View.ld (iblk m c 2 t) r0_5) p q).trans ?_
  rw [gate_tile m e c t he p (Spec.gF q), gate_tile m e c t he p (Spec.gI q), gate_tile m e c t he p (Spec.gG q), ld_c m c t p q]
  rfl

/-- The hidden-state block of tile t at (p, q) is the specification's hidden state of batch row 256 t + p. -/
private theorem hiddenBlock_tile (c : Dev nD) (t : Fin cfg0.N) (he : ∀ p : Fin 1536, m ((c : Thread nD τ).loc main_arg0) (ix1 p) = BitVec.ofNat 32 (e p).val) (p : Fin 256) (q : Fin 512) :
    E9 (F := Ideal) (View.ld (iblk m c 4 t) r0_0) (View.ld (iblk m c 4 t) r0_1) (View.ld (iblk m c 3 t) r0_2) (View.ld (iblk m c 5 t) r0_3) (View.ld (iblk m c 0 t) r0_4) (View.ld (iblk m c 1 t) r0_5) (View.ld (iblk m c 2 t) r0_5) (ix2 p q) = Spec.hx e (m ((c : Thread nD τ).loc main_arg1)) (m ((c : Thread nD τ).loc main_arg2)) (m ((c : Thread nD τ).loc main_arg3)) (m ((c : Thread nD τ).loc main_arg4)) (m ((c : Thread nD τ).loc main_arg5)) (row t p) q := by
  refine (hiddenBlock_apply (View.ld (iblk m c 4 t) r0_0) (View.ld (iblk m c 4 t) r0_1) (View.ld (iblk m c 3 t) r0_2) (View.ld (iblk m c 5 t) r0_3) (View.ld (iblk m c 0 t) r0_4) (View.ld (iblk m c 1 t) r0_5) (View.ld (iblk m c 2 t) r0_5) p q).trans ?_
  rw [gate_tile m e c t he p (Spec.gO q), gate_tile m e c t he p (Spec.gF q), gate_tile m e c t he p (Spec.gI q), gate_tile m e c t he p (Spec.gG q), ld_c m c t p q]
  rfl

/-- The hidden-state tile the body leaves at point t, read at (p, q), is the specification's hidden state of batch row 256 t + p. -/
private theorem hx_tile (c : Dev nD) (t : Fin cfg0.N) (he : ∀ p : Fin 1536, m ((c : Thread nD τ).loc main_arg0) (ix1 p) = BitVec.ofNat 32 (e p).val) (p : Fin 256) (q : Fin 512) :
    out0_9 (F := Ideal) (iblk m c 0 t) (iblk m c 1 t) (iblk m c 2 t) (iblk m c 3 t) (iblk m c 4 t) (iblk m c 5 t) (iblk m c 6 t) (iblk m c 7 t) (ix2 p q)
      = Spec.hx e (m ((c : Thread nD τ).loc main_arg1)) (m ((c : Thread nD τ).loc main_arg2)) (m ((c : Thread nD τ).loc main_arg3)) (m ((c : Thread nD τ).loc main_arg4)) (m ((c : Thread nD τ).loc main_arg5)) (row t p) q := by
  unfold out0_9
  exact (canon9_eq (F := Ideal) (View.ld (iblk m c 4 t) r0_0) (View.ld (iblk m c 4 t) r0_1) (View.ld (iblk m c 3 t) r0_2) (View.ld (iblk m c 5 t) r0_3) (View.ld (iblk m c 0 t) r0_4) (View.ld (iblk m c 1 t) r0_5) (View.ld (iblk m c 2 t) r0_5) (ix2 p q)).trans (hiddenBlock_tile m e c t he p q)

/-- The logits tile the body leaves at point t, read at (p, r), is the specification's logit r of batch row 256 t + p. -/
private theorem logit_tile (c : Dev nD) (t : Fin cfg0.N) (he : ∀ p : Fin 1536, m ((c : Thread nD τ).loc main_arg0) (ix1 p) = BitVec.ofNat 32 (e p).val) (p : Fin 256) (r : Fin 4) :
    out0_8 (F := Ideal) (iblk m c 0 t) (iblk m c 1 t) (iblk m c 2 t) (iblk m c 3 t) (iblk m c 4 t) (iblk m c 5 t) (iblk m c 6 t) (iblk m c 7 t) (ix2 p r)
      = Spec.logit e (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (row t p) r := by
  unfold out0_8
  rw [View.canon_unit_zero offs_zero]
  refine (logits_apply (k0_pay5 (F := Ideal) (View.ld (iblk m c 4 t) r0_0) (View.ld (iblk m c 4 t) r0_1) (View.ld (iblk m c 3 t) r0_2) (View.ld (iblk m c 5 t) r0_3) (View.ld (iblk m c 0 t) r0_4) (View.ld (iblk m c 1 t) r0_5) (View.ld (iblk m c 2 t) r0_5)) (View.ld (iblk m c 6 t) r0_6) (View.ld (iblk m c 7 t) r0_7) p r).trans ?_
  have hs : ∀ k : Fin 512, k0_pay5 (F := Ideal) (View.ld (iblk m c 4 t) r0_0) (View.ld (iblk m c 4 t) r0_1) (View.ld (iblk m c 3 t) r0_2) (View.ld (iblk m c 5 t) r0_3) (View.ld (iblk m c 0 t) r0_4) (View.ld (iblk m c 1 t) r0_5) (View.ld (iblk m c 2 t) r0_5) (ix2 p k) = Spec.hx e (m ((c : Thread nD τ).loc main_arg1)) (m ((c : Thread nD τ).loc main_arg2)) (m ((c : Thread nD τ).loc main_arg3)) (m ((c : Thread nD τ).loc main_arg4)) (m ((c : Thread nD τ).loc main_arg5)) (row t p) k := fun k =>
    (hidden_narrow_apply (View.ld (iblk m c 4 t) r0_0) (View.ld (iblk m c 4 t) r0_1) (View.ld (iblk m c 3 t) r0_2) (View.ld (iblk m c 5 t) r0_3) (View.ld (iblk m c 0 t) r0_4) (View.ld (iblk m c 1 t) r0_5) (View.ld (iblk m c 2 t) r0_5) (ix2 p k)).trans ((hidden_pay_apply (View.ld (iblk m c 4 t) r0_0) (View.ld (iblk m c 4 t) r0_1) (View.ld (iblk m c 3 t) r0_2) (View.ld (iblk m c 5 t) r0_3) (View.ld (iblk m c 0 t) r0_4) (View.ld (iblk m c 1 t) r0_5) (View.ld (iblk m c 2 t) r0_5) (ix2 p k)).trans (hiddenBlock_tile m e c t he p k))
  have hsum : (∑ k : Fin 512, k0_pay5 (F := Ideal) (View.ld (iblk m c 4 t) r0_0) (View.ld (iblk m c 4 t) r0_1) (View.ld (iblk m c 3 t) r0_2) (View.ld (iblk m c 5 t) r0_3) (View.ld (iblk m c 0 t) r0_4) (View.ld (iblk m c 1 t) r0_5) (View.ld (iblk m c 2 t) r0_5) (ix2 p k) * View.ld (iblk m c 6 t) r0_6 (ix3 (0 : Fin 1) k (Spec.lane r)))
      = ∑ k : Fin 512, Spec.hx e (m ((c : Thread nD τ).loc main_arg1)) (m ((c : Thread nD τ).loc main_arg2)) (m ((c : Thread nD τ).loc main_arg3)) (m ((c : Thread nD τ).loc main_arg4)) (m ((c : Thread nD τ).loc main_arg5)) (row t p) k * (m ((c : Thread nD τ).loc main_arg6)) (ix3 (2 : Fin 9) k (Spec.lane r)) :=
    Finset.sum_congr rfl fun k _ => by rw [hs k, ld_dw m c t]
  rw [hsum, ld_db m c t]
  rfl

/-- The block index of the three output windows at point t is (t, 0): decided over the six points. -/
private theorem out_index_facts : ∀ t : Fin cfg0.N, win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- A 256 × 4 tile that agrees with rows 256 t … 256 t + 255 of an array is that array read through window 8's block at t. -/
private theorem cut_eq_read8 (t : Fin cfg0.N) (Y : Vec Ideal S256x4 .f32) (G : Spec.A2 1536 4)
    (h : ∀ (p : Fin 256) (q : Fin 4), Y (ix2 p q) = G (ix2 (row t p) q)) :
    (cfg0.win 8).cut (grid0.coords t) Y = ((cfg0.win 8).blk t).view.read (Elt Ideal) G := by
  obtain ⟨e80, e81, e90, e91, e100, e101⟩ := out_index_facts t
  funext j
  have hj0 : (j 0).val < 256 := (j 0).isLt
  have hj1 : (j 1).val < 4 := (j 1).isLt
  have hy : (cfg0.win 8).xinj (grid0.coords t) j = ix2 (⟨(j 0).val, hj0⟩ : Fin 256) (⟨(j 1).val, hj1⟩ : Fin 4) := by
    funext a; match a with | ⟨0, _⟩ => rfl | ⟨1, _⟩ => rfl
  show Y ((cfg0.win 8).xinj (grid0.coords t) j) = G (((cfg0.win 8).blk t).view.emb j)
  refine (congrArg Y hy).trans ((h _ _).trans ?_)
  congr 1
  funext a; apply Fin.ext
  match a with
  | ⟨0, _⟩ => show 256 * t.val + (j 0).val = win0_8.index t (0 : Fin 2) * 256 + 1 * (j 0).val; omega
  | ⟨1, _⟩ => show (j 1).val = win0_8.index t (1 : Fin 2) * 4 + 1 * (j 1).val; omega

/-- A 256 × 512 tile that agrees with rows 256 t … 256 t + 255 of an array is that array read through window 9's block at t. -/
private theorem cut_eq_read9 (t : Fin cfg0.N) (Y : Vec Ideal S256x512 .f32) (G : Spec.A2 1536 512)
    (h : ∀ (p : Fin 256) (q : Fin 512), Y (ix2 p q) = G (ix2 (row t p) q)) :
    (cfg0.win 9).cut (grid0.coords t) Y = ((cfg0.win 9).blk t).view.read (Elt Ideal) G := by
  obtain ⟨e80, e81, e90, e91, e100, e101⟩ := out_index_facts t
  funext j
  have hj0 : (j 0).val < 256 := (j 0).isLt
  have hj1 : (j 1).val < 512 := (j 1).isLt
  have hy : (cfg0.win 9).xinj (grid0.coords t) j = ix2 (⟨(j 0).val, hj0⟩ : Fin 256) (⟨(j 1).val, hj1⟩ : Fin 512) := by
    funext a; match a with | ⟨0, _⟩ => rfl | ⟨1, _⟩ => rfl
  show Y ((cfg0.win 9).xinj (grid0.coords t) j) = G (((cfg0.win 9).blk t).view.emb j)
  refine (congrArg Y hy).trans ((h _ _).trans ?_)
  congr 1
  funext a; apply Fin.ext
  match a with
  | ⟨0, _⟩ => show 256 * t.val + (j 0).val = win0_9.index t (0 : Fin 2) * 256 + 1 * (j 0).val; omega
  | ⟨1, _⟩ => show (j 1).val = win0_9.index t (1 : Fin 2) * 512 + 1 * (j 1).val; omega

/-- A 256 × 512 tile that agrees with rows 256 t … 256 t + 255 of an array is that array read through window 10's block at t. -/
private theorem cut_eq_read10 (t : Fin cfg0.N) (Y : Vec Ideal S256x512 .f32) (G : Spec.A2 1536 512)
    (h : ∀ (p : Fin 256) (q : Fin 512), Y (ix2 p q) = G (ix2 (row t p) q)) :
    (cfg0.win 10).cut (grid0.coords t) Y = ((cfg0.win 10).blk t).view.read (Elt Ideal) G := by
  obtain ⟨e80, e81, e90, e91, e100, e101⟩ := out_index_facts t
  funext j
  have hj0 : (j 0).val < 256 := (j 0).isLt
  have hj1 : (j 1).val < 512 := (j 1).isLt
  have hy : (cfg0.win 10).xinj (grid0.coords t) j = ix2 (⟨(j 0).val, hj0⟩ : Fin 256) (⟨(j 1).val, hj1⟩ : Fin 512) := by
    funext a; match a with | ⟨0, _⟩ => rfl | ⟨1, _⟩ => rfl
  show Y ((cfg0.win 10).xinj (grid0.coords t) j) = G (((cfg0.win 10).blk t).view.emb j)
  refine (congrArg Y hy).trans ((h _ _).trans ?_)
  congr 1
  funext a; apply Fin.ext
  match a with
  | ⟨0, _⟩ => show 256 * t.val + (j 0).val = win0_10.index t (0 : Fin 2) * 256 + 1 * (j 0).val; omega
  | ⟨1, _⟩ => show (j 1).val = win0_10.index t (1 : Fin 2) * 512 + 1 * (j 1).val; omega

/-- An index of the array is in point t's block of window 8 iff each coordinate is in the block's range on its axis. -/
private theorem mem_blk8 (t : Fin cfg0.N) (i : S1536x4.Idx) :
    i ∈ ((cfg0.win 8).blk t).view.set ↔ ∀ a : Fin 2, win0_8.index t a * S256x4.size a ≤ (i a).val ∧ (i a).val < win0_8.index t a * S256x4.size a + S256x4.size a := by
  show i ∈ ((View.whole main_v1_0).slice (win0_8.rect t)).set ↔ _
  rw [View.set_slice_whole, Rect.mem_set_unit]
  exact Iff.rfl

/-- Row r of the array lies in the block of point r / 256. -/
private theorem cover8 (i : S1536x4.Idx) : ∃ t : Fin cfg0.N, (cfg0.win 8).flush t = true ∧ i ∈ ((cfg0.win 8).blk t).view.set := by
  have hi0 : (i 0).val < 1536 := (i 0).isLt
  have hi1 : (i 1).val < 4 := (i 1).isLt
  obtain ⟨t, ht⟩ : ∃ t : Fin cfg0.N, t.val = (i 0).val / 256 := ⟨⟨(i 0).val / 256, lt_of_lt_of_eq (by omega) N_0.symm⟩, rfl⟩
  obtain ⟨e80, e81, e90, e91, e100, e101⟩ := out_index_facts t
  refine ⟨t, flush0_8 t, ?_⟩
  rw [mem_blk8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 4 ≤ (i 1).val ∧ (i 1).val < win0_8.index t (1 : Fin 2) * 4 + 4; omega

/-- An index of the array is in point t's block of window 9 iff each coordinate is in the block's range on its axis. -/
private theorem mem_blk9 (t : Fin cfg0.N) (i : S1536x512.Idx) :
    i ∈ ((cfg0.win 9).blk t).view.set ↔ ∀ a : Fin 2, win0_9.index t a * S256x512.size a ≤ (i a).val ∧ (i a).val < win0_9.index t a * S256x512.size a + S256x512.size a := by
  show i ∈ ((View.whole main_v1_1).slice (win0_9.rect t)).set ↔ _
  rw [View.set_slice_whole, Rect.mem_set_unit]
  exact Iff.rfl

/-- Row r of the array lies in the block of point r / 256. -/
private theorem cover9 (i : S1536x512.Idx) : ∃ t : Fin cfg0.N, (cfg0.win 9).flush t = true ∧ i ∈ ((cfg0.win 9).blk t).view.set := by
  have hi0 : (i 0).val < 1536 := (i 0).isLt
  have hi1 : (i 1).val < 512 := (i 1).isLt
  obtain ⟨t, ht⟩ : ∃ t : Fin cfg0.N, t.val = (i 0).val / 256 := ⟨⟨(i 0).val / 256, lt_of_lt_of_eq (by omega) N_0.symm⟩, rfl⟩
  obtain ⟨e80, e81, e90, e91, e100, e101⟩ := out_index_facts t
  refine ⟨t, flush0_9 t, ?_⟩
  rw [mem_blk9]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 512 ≤ (i 1).val ∧ (i 1).val < win0_9.index t (1 : Fin 2) * 512 + 512; omega

/-- An index of the array is in point t's block of window 10 iff each coordinate is in the block's range on its axis. -/
private theorem mem_blk10 (t : Fin cfg0.N) (i : S1536x512.Idx) :
    i ∈ ((cfg0.win 10).blk t).view.set ↔ ∀ a : Fin 2, win0_10.index t a * S256x512.size a ≤ (i a).val ∧ (i a).val < win0_10.index t a * S256x512.size a + S256x512.size a := by
  show i ∈ ((View.whole main_v1_2).slice (win0_10.rect t)).set ↔ _
  rw [View.set_slice_whole, Rect.mem_set_unit]
  exact Iff.rfl

/-- Row r of the array lies in the block of point r / 256. -/
private theorem cover10 (i : S1536x512.Idx) : ∃ t : Fin cfg0.N, (cfg0.win 10).flush t = true ∧ i ∈ ((cfg0.win 10).blk t).view.set := by
  have hi0 : (i 0).val < 1536 := (i 0).isLt
  have hi1 : (i 1).val < 512 := (i 1).isLt
  obtain ⟨t, ht⟩ : ∃ t : Fin cfg0.N, t.val = (i 0).val / 256 := ⟨⟨(i 0).val / 256, lt_of_lt_of_eq (by omega) N_0.symm⟩, rfl⟩
  obtain ⟨e80, e81, e90, e91, e100, e101⟩ := out_index_facts t
  refine ⟨t, flush0_10 t, ?_⟩
  rw [mem_blk10]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 512 ≤ (i 1).val ∧ (i 1).val < win0_10.index t (1 : Fin 2) * 512 + 512; omega

/-- What point t writes back to the logits array is block t of the specification's logits. -/
private theorem flushed8_eq (c : Dev nD) (t : Fin cfg0.N) (he : ∀ p : Fin 1536, m ((c : Thread nD τ).loc main_arg0) (ix1 p) = BitVec.ofNat 32 (e p).val) :
    (dats m 0 c).flushed 8 t = ((cfg0.win 8).blk t).view.read (Elt Ideal) (Spec.logitsA e (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed8]
  exact cut_eq_read8 t _ _ fun p r => logit_tile m e c t he p r

/-- What point t writes back to the hidden-state array is block t of the specification's hidden state. -/
private theorem flushed9_eq (c : Dev nD) (t : Fin cfg0.N) (he : ∀ p : Fin 1536, m ((c : Thread nD τ).loc main_arg0) (ix1 p) = BitVec.ofNat 32 (e p).val) :
    (dats m 0 c).flushed 9 t = ((cfg0.win 9).blk t).view.read (Elt Ideal) (Spec.hxA e (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed9]
  exact cut_eq_read9 t _ _ fun p q => hx_tile m e c t he p q

/-- What point t writes back to the cell-state array is block t of the specification's cell state. -/
private theorem flushed10_eq (c : Dev nD) (t : Fin cfg0.N) (he : ∀ p : Fin 1536, m ((c : Thread nD τ).loc main_arg0) (ix1 p) = BitVec.ofNat 32 (e p).val) :
    (dats m 0 c).flushed 10 t = ((cfg0.win 10).blk t).view.read (Elt Ideal) (Spec.cxA e (m ((c : Thread nD τ).loc main_arg1)) (m ((c : Thread nD τ).loc main_arg2)) (m ((c : Thread nD τ).loc main_arg3)) (m ((c : Thread nD τ).loc main_arg4)) (m ((c : Thread nD τ).loc main_arg5))) := by
  rw [Value.flushed10]
  exact cut_eq_read10 t _ _ fun p q => cx_tile m e c t he p q

/-- After the run the logits array is the specification's. -/
theorem final8 (c : Dev nD) (he : ∀ p : Fin 1536, m ((c : Thread nD τ).loc main_arg0) (ix1 p) = BitVec.ofNat 32 (e p).val) :
    (dats m 0 c).arrAt 8 cfg0.N = Spec.logitsA e (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  exact (dats m 0 c).arrAt_eq_of_cover 8 _ (fun t _ => flushed8_eq m e c t he) cover8

/-- After the run the hidden-state array is the specification's. -/
theorem final9 (c : Dev nD) (he : ∀ p : Fin 1536, m ((c : Thread nD τ).loc main_arg0) (ix1 p) = BitVec.ofNat 32 (e p).val) :
    (dats m 0 c).arrAt 9 cfg0.N = Spec.hxA e (m ((c : Thread nD τ).loc main_arg1)) (m ((c : Thread nD τ).loc main_arg2)) (m ((c : Thread nD τ).loc main_arg3)) (m ((c : Thread nD τ).loc main_arg4)) (m ((c : Thread nD τ).loc main_arg5)) := by
  exact (dats m 0 c).arrAt_eq_of_cover 9 _ (fun t _ => flushed9_eq m e c t he) cover9

/-- After the run the cell-state array is the specification's. -/
theorem final10 (c : Dev nD) (he : ∀ p : Fin 1536, m ((c : Thread nD τ).loc main_arg0) (ix1 p) = BitVec.ofNat 32 (e p).val) :
    (dats m 0 c).arrAt 10 cfg0.N = Spec.cxA e (m ((c : Thread nD τ).loc main_arg1)) (m ((c : Thread nD τ).loc main_arg2)) (m ((c : Thread nD τ).loc main_arg3)) (m ((c : Thread nD τ).loc main_arg4)) (m ((c : Thread nD τ).loc main_arg5)) := by
  exact (dats m 0 c).arrAt_eq_of_cover 10 _ (fun t _ => flushed10_eq m e c t he) cover10

/-- The kernel's run with its three results named by the specification. -/
theorem run_spec (ec : Dev nD → Fin 1536 → Fin 9)
    (he : ∀ (c : Dev nD) (p : Fin 1536), m ((c : Thread nD τ).loc main_arg0) (ix1 p) = BitVec.ofNat 32 (ec c p).val) :
    θ_run defs (onTc (τ := τ) (main (F := Ideal))) ⟨m, fun _ => 0, ρ⟩ fun r => ∀ c : Dev nD,
      r.2.mem ((c : Thread nD τ).loc main_v1_0) = Spec.logitsA (ec c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v1_1) = Spec.hxA (ec c) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v1_2) = Spec.cxA (ec c) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m (ec c) c (he c)), (h c).2.1.trans (final9 m (ec c) c (he c)),
    (h c).2.2.1.trans (final10 m (ec c) c (he c)), (h c).2.2.2⟩) (Value.run_blocks m ρ)

end Cert.KernelIdeal.Hand

end
-- ==== Proof.RefPieces.lean ====
import proofs.«139382_g2000601216510222_pallasbulk_1026_5_alg».proof.Proof.Gen.ReferenceIdeal.Frame
import Idealize.ShloMosaic.Lib.Pipeline.Value

set_option maxRecDepth 16384

noncomputable section

namespace Cert.ReferenceIdeal.Hand

open Cert.ReferenceIdeal Cert.ReferenceIdeal.Gen Idealize.ShloMosaic Idealize.ShloMosaic.TcCoe Idealize.ShloMosaic.Tactic
open Idealize.SL Idealize.SL.Sem

variable {F : FTy → Type} [FloatOps F]

/-- The offsets of a whole-block rectangle of a rank-2 buffer are all zero. -/
private theorem zeroOff2 : (![0, 0] : Fin 2 → Nat) = fun _ => 0 := funext fun a => by fin_cases a <;> rfl

/-- The offsets of a whole-block rectangle of a rank-3 buffer are all zero. -/
private theorem zeroOff3 : (![0, 0, 0] : Fin 3 → Nat) = fun _ => 0 := funext fun a => by fin_cases a <;> rfl

/-- What the body leaves in the logits' staging buffer is the logits' payload of the loaded blocks. -/
theorem out6_eq (c : Dev nD) (i : grid0.Coords) (arg2 : Memref sig .tc .vmem S1536x1024 .f32) (harg2 : arg2.IsWhole) (arg3 : Memref sig .tc .vmem S1536x512 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1x512x128 .f32) (harg6 : arg6.IsWhole) (arg7 : Memref sig .tc .vmem S1x1x128 .f32) (harg7 : arg7.IsWhole) (arg8 : Memref sig .tc .vmem S1536x128 .f32) (harg8 : arg8.IsWhole) (arg9 : Memref sig .tc .vmem S1536x512 .f32) (harg9 : arg9.IsWhole) (arg10 : Memref sig .tc .vmem S1536x512 .f32) (harg10 : arg10.IsWhole)
    (x0 : Vec F S1536x1024 .f32) (x1 : Vec F S1536x512 .f32) (x2 : Vec F S1024x2048 .f32) (x3 : Vec F S1x2048 .f32) (x4 : Vec F S1x512x128 .f32) (x5 : Vec F S1x1x128 .f32) (xt0 : TbBuf0 (F := F) c tbM0_0) :
    out0_A_6 c i arg2 harg2 arg3 harg3 arg4 harg4 arg5 harg5 arg6 harg6 arg7 harg7 arg8 harg8 arg9 harg9 arg10 harg10 x0 x1 x2 x3 x4 x5 xt0 = k0_pay4 x0 x1 x2 x3 x4 x5 := by
  -- one store covers the whole block at offset zero, so the buffer reads back as that store's payload;
  -- each load reads a whole input buffer at offset zero, so it returns the block the buffer holds
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5 xt0)]
  unfold kernelRun0_A
  dsimp only
  sl_unfold_words
  rw [View.canon_unit_zero zeroOff2]
  simp only [View.readAt_eq_ld, harg2.read_unread, harg3.read_unread, harg4.read_unread, harg5.read_unread, harg6.read_unread, harg7.read_unread, View.ld_unit_zero (S := S1536x1024) zeroOff2, View.ld_unit_zero (S := S1536x512) zeroOff2, View.ld_unit_zero (S := S1024x2048) zeroOff2, View.ld_unit_zero (S := S1x2048) zeroOff2, View.ld_unit_zero (S := S1x512x128) zeroOff3, View.ld_unit_zero (S := S1x1x128) zeroOff3]

/-- What the body leaves in the hidden state's staging buffer is its payload of the loaded blocks. -/
theorem out7_eq (c : Dev nD) (i : grid0.Coords) (arg2 : Memref sig .tc .vmem S1536x1024 .f32) (harg2 : arg2.IsWhole) (arg3 : Memref sig .tc .vmem S1536x512 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1x512x128 .f32) (harg6 : arg6.IsWhole) (arg7 : Memref sig .tc .vmem S1x1x128 .f32) (harg7 : arg7.IsWhole) (arg8 : Memref sig .tc .vmem S1536x128 .f32) (harg8 : arg8.IsWhole) (arg9 : Memref sig .tc .vmem S1536x512 .f32) (harg9 : arg9.IsWhole) (arg10 : Memref sig .tc .vmem S1536x512 .f32) (harg10 : arg10.IsWhole)
    (x0 : Vec F S1536x1024 .f32) (x1 : Vec F S1536x512 .f32) (x2 : Vec F S1024x2048 .f32) (x3 : Vec F S1x2048 .f32) (x4 : Vec F S1x512x128 .f32) (x5 : Vec F S1x1x128 .f32) (xt0 : TbBuf0 (F := F) c tbM0_0) :
    out0_A_7 c i arg2 harg2 arg3 harg3 arg4 harg4 arg5 harg5 arg6 harg6 arg7 harg7 arg8 harg8 arg9 harg9 arg10 harg10 x0 x1 x2 x3 x4 x5 xt0 = k0_pay3 x0 x1 x2 x3 := by
  -- one store covers the whole block at offset zero, so the buffer reads back as that store's payload;
  -- each load reads a whole input buffer at offset zero, so it returns the block the buffer holds
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5 xt0)]
  unfold kernelRun0_A
  dsimp only
  sl_unfold_words
  rw [View.canon_unit_zero zeroOff2]
  simp only [View.readAt_eq_ld, harg2.read_unread, harg3.read_unread, harg4.read_unread, harg5.read_unread, View.ld_unit_zero (S := S1536x1024) zeroOff2, View.ld_unit_zero (S := S1536x512) zeroOff2, View.ld_unit_zero (S := S1024x2048) zeroOff2, View.ld_unit_zero (S := S1x2048) zeroOff2]

/-- What the body leaves in the cell state's staging buffer is its payload of the loaded blocks. -/
theorem out8_eq (c : Dev nD) (i : grid0.Coords) (arg2 : Memref sig .tc .vmem S1536x1024 .f32) (harg2 : arg2.IsWhole) (arg3 : Memref sig .tc .vmem S1536x512 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S1x512x128 .f32) (harg6 : arg6.IsWhole) (arg7 : Memref sig .tc .vmem S1x1x128 .f32) (harg7 : arg7.IsWhole) (arg8 : Memref sig .tc .vmem S1536x128 .f32) (harg8 : arg8.IsWhole) (arg9 : Memref sig .tc .vmem S1536x512 .f32) (harg9 : arg9.IsWhole) (arg10 : Memref sig .tc .vmem S1536x512 .f32) (harg10 : arg10.IsWhole)
    (x0 : Vec F S1536x1024 .f32) (x1 : Vec F S1536x512 .f32) (x2 : Vec F S1024x2048 .f32) (x3 : Vec F S1x2048 .f32) (x4 : Vec F S1x512x128 .f32) (x5 : Vec F S1x1x128 .f32) (xt0 : TbBuf0 (F := F) c tbM0_0) :
    out0_A_8 c i arg2 harg2 arg3 harg3 arg4 harg4 arg5 harg5 arg6 harg6 arg7 harg7 arg8 harg8 arg9 harg9 arg10 harg10 x0 x1 x2 x3 x4 x5 xt0 = k0_pay2 x0 x1 x2 x3 := by
  -- one store covers the whole block at offset zero, so the buffer reads back as that store's payload;
  -- each load reads a whole input buffer at offset zero, so it returns the block the buffer holds
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 xt0)]
  unfold kernelRun0_A
  dsimp only
  sl_unfold_words
  rw [View.canon_unit_zero zeroOff2]
  simp only [View.readAt_eq_ld, harg2.read_unread, harg3.read_unread, harg4.read_unread, harg5.read_unread, View.ld_unit_zero (S := S1536x1024) zeroOff2, View.ld_unit_zero (S := S1536x512) zeroOff2, View.ld_unit_zero (S := S1024x2048) zeroOff2, View.ld_unit_zero (S := S1x2048) zeroOff2]

end Cert.ReferenceIdeal.Hand

end
-- ==== Proof.RefPayload.lean ====
import proofs.«139382_g2000601216510222_pallasbulk_1026_5_alg».proof.Proof.Gen.ReferenceIdeal.Skeleton
import proofs.«139382_g2000601216510222_pallasbulk_1026_5_alg».proof.Proof.LibPlainDot
import proofs.«139382_g2000601216510222_pallasbulk_1026_5_alg».proof.Proof.Spec
import Idealize.ShloMosaic.Lib.Pipeline.Value
import Idealize.ShloMosaic.Lib.ValueLayout

set_option maxRecDepth 16384

noncomputable section

namespace Cert.ReferenceIdeal.Hand

open Cert.ReferenceIdeal Cert.ReferenceIdeal.Gen Idealize.ShloMosaic Idealize.ShloMosaic.ValueIdx

variable (x0 : Vec Ideal S1536x1024 .f32) (x1 : Vec Ideal S1536x512 .f32) (x2 : Vec Ideal S1024x2048 .f32)
  (x3 : Vec Ideal S1x2048 .f32) (x4 : Vec Ideal S1x512x128 .f32) (x5 : Vec Ideal S1x1x128 .f32)

/-- The gate pre-activations, read at (p, j): the row of length 1024 against the fused weight, plus the bias. -/
theorem gates_apply (p : Fin 1536) (j : Fin 2048) :
    k0_pay1 (F := Ideal) x0 x2 x3 (ix2 p j) = (∑ k : Fin 1024, x0 (ix2 p k) * x2 (ix2 k j)) + x3 (ix2 (0 : Fin 1) j) := by
  show FloatOps.matmul (F := Ideal) dot_S1536x1024_S1024x2048_S1536x2048_1_0_0_1_n_n none
        (shapeCast S1536x1024 x0 shapeCasts_S1536x1024_S1536x1024) x2 (constant S1536x2048 .f32 0x00000000#32) (ix2 p j)
      + broadcastTo S1536x2048 x3 broadcasts_S1x2048_S1536x2048 (ix2 p j) = _
  rw [shapeCast_self, broadcastTo_1b_ab_apply,
    PlainDot.matmul_zero_apply (d := dot_S1536x1024_S1024x2048_S1536x2048_1_0_0_1_n_n) ⟨rfl, rfl, rfl, rfl, rfl, rfl⟩]

/-- A slice of the gates along the columns from o, read at (p, q): the gates at (p, o + q). -/
private theorem gates_slice (o : Nat) (h : S1536x2048.Slices ![0, o] S1536x512) (p : Fin 1536) (q : Fin 512)
    (k : Fin 2048) (hk : k.val = o + q.val) :
    extractStridedSlice S1536x512 ![0, o] (k0_pay1 (F := Ideal) x0 x2 x3) h (ix2 p q)
      = k0_pay1 (F := Ideal) x0 x2 x3 (ix2 p k) :=
  slice2_axis1_apply o _ h p q k hk

/-- The new cell state, read at (p, q). -/
theorem cx_apply (p : Fin 1536) (q : Fin 512) :
    k0_pay2 (F := Ideal) x0 x1 x2 x3 (ix2 p q)
      = Ideal.logistic (k0_pay1 (F := Ideal) x0 x2 x3 (ix2 p (Spec.gF q))) * x1 (ix2 p q)
        + Ideal.logistic (k0_pay1 (F := Ideal) x0 x2 x3 (ix2 p (Spec.gI q))) * Ideal.tanh (k0_pay1 (F := Ideal) x0 x2 x3 (ix2 p (Spec.gG q))) := by
  show Ideal.logistic (extractStridedSlice S1536x512 ![0, 512] (k0_pay1 (F := Ideal) x0 x2 x3) slices_S1536x2048_o0_512_S1536x512 (ix2 p q)) * x1 (ix2 p q)
      + Ideal.logistic (extractStridedSlice S1536x512 ![0, 0] (k0_pay1 (F := Ideal) x0 x2 x3) slices_S1536x2048_o0_0_S1536x512 (ix2 p q))
        * Ideal.tanh (extractStridedSlice S1536x512 ![0, 1024] (k0_pay1 (F := Ideal) x0 x2 x3) slices_S1536x2048_o0_1024_S1536x512 (ix2 p q)) = _
  rw [gates_slice x0 x2 x3 512 _ p q (Spec.gF q) (Nat.add_comm _ _),
    gates_slice x0 x2 x3 0 _ p q (Spec.gI q) (Nat.zero_add _).symm,
    gates_slice x0 x2 x3 1024 _ p q (Spec.gG q) (Nat.add_comm _ _)]

/-- The new hidden state, read at (p, q). -/
theorem hx_apply (p : Fin 1536) (q : Fin 512) :
    k0_pay3 (F := Ideal) x0 x1 x2 x3 (ix2 p q)
      = Ideal.logistic (k0_pay1 (F := Ideal) x0 x2 x3 (ix2 p (Spec.gO q))) * Ideal.tanh (k0_pay2 (F := Ideal) x0 x1 x2 x3 (ix2 p q)) := by
  show Ideal.logistic (extractStridedSlice S1536x512 ![0, 1536] (k0_pay1 (F := Ideal) x0 x2 x3) slices_S1536x2048_o0_1536_S1536x512 (ix2 p q))
      * Ideal.tanh (k0_pay2 (F := Ideal) x0 x1 x2 x3 (ix2 p q)) = _
  rw [gates_slice x0 x2 x3 1536 _ p q (Spec.gO q) (Nat.add_comm _ _)]

/-- The padded logits, read at (p, l). -/
theorem logits_apply (p : Fin 1536) (l : Fin 128) :
    k0_pay4 (F := Ideal) x0 x1 x2 x3 x4 x5 (ix2 p l)
      = Ideal.ofBits .f32 0x40200000#32 * Ideal.tanh (((∑ k : Fin 512, k0_pay3 (F := Ideal) x0 x1 x2 x3 (ix2 p k) * x4 (ix3 (0 : Fin 1) k l))
          + x5 (ix3 (0 : Fin 1) (0 : Fin 1) l)) * Ideal.ofBits .f32 0x3E4CCCCD#32) := by
  show Ideal.ofBits .f32 0x40200000#32 * Ideal.tanh ((FloatOps.matmul (F := Ideal) dot_S1536x512_S512x128_S1536x128_1_0_0_1_n_n none
        (k0_pay3 (F := Ideal) x0 x1 x2 x3) (shapeCast S512x128 x4 shapeCasts_S1x512x128_S512x128) (constant S1536x128 .f32 0x00000000#32) (ix2 p l)
      + broadcastTo S1536x128 (shapeCast S1x128 x5 shapeCasts_S1x1x128_S1x128) broadcasts_S1x128_S1536x128 (ix2 p l))
      * Ideal.ofBits .f32 0x3E4CCCCD#32) = _
  rw [broadcastTo_1b_ab_apply, shapeCast_1ab_ab_apply,
    PlainDot.matmul_zero_apply (d := dot_S1536x512_S512x128_S1536x128_1_0_0_1_n_n) ⟨rfl, rfl, rfl, rfl, rfl, rfl⟩]
  have hsum : (∑ k : Fin 512, k0_pay3 (F := Ideal) x0 x1 x2 x3 (ix2 p k) * shapeCast S512x128 x4 shapeCasts_S1x512x128_S512x128 (ix2 k l))
      = ∑ k : Fin 512, k0_pay3 (F := Ideal) x0 x1 x2 x3 (ix2 p k) * x4 (ix3 (0 : Fin 1) k l) :=
    Finset.sum_congr rfl fun k _ => by rw [shapeCast_1ab_ab_apply]
  rw [hsum]

end Cert.ReferenceIdeal.Hand

end
-- ==== Proof.RefHost.lean ====
/-
  What the reference's host operations leave before its kernel region.

  The reference looks the token ids up in the embedding table by a gather: an id below zero is first wrapped by the
  table's height 9, the ids are laid out as a column, a row whose wrapped id lies outside [0, 8] is replaced by a fill
  value, and otherwise the gather reads the table's row at the id, read signed and clamped into [0, 8]. For an id
  e(p) in [0, 9) nothing is wrapped, the range test passes and the clamp is the identity, so row p of the looked-up
  array is row e(p) of the table. The looked-up rows are then set beside the hidden state along the columns: the row
  [x | h] of length 1024 that meets the fused weight. The one prefetched word is the constant 2, the decoder head;
  with it the decoder windows' blocks are slab 2 of nine, inside their arrays.
-/
import proofs.«139382_g2000601216510222_pallasbulk_1026_5_alg».proof.Proof.Gen.ReferenceIdeal.Frame
import proofs.«139382_g2000601216510222_pallasbulk_1026_5_alg».proof.Proof.Spec
import Idealize.ShloMosaic.Lib.StableHlo.Run
import Idealize.ShloMosaic.Lib.Pipeline.Value

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.ValueIdx

variable (m : (ℓ : Loc nD τ sig) → Buf (Elt Ideal) ℓ) (e : Fin 1536 → Fin 9)

/-! ### The looked-up rows beside the hidden state, as one term of the ids, the table and the hidden state -/

/-- The token ids as the gather finds them: a negative id wrapped once by the table's height, laid out as a column. -/
private def idCol (idx : IVec S1536 32) : IVec S1536x1 32 :=
  broadcastInDim S1536x1 ![0] bcast_S1536_S1536x1_0
    (select (cmpi .slt idx (broadcastInDim S1536 ![] bcast_S_S1536 (constantI S_ 32 0#32)))
      (addi idx (broadcastInDim S1536 ![] bcast_S_S1536 (constantI S_ 32 9#32))) idx)

/-- Row by row, whether the id in a column of ids lies in [0, 8]. -/
private def inRange (ids : IVec S1536x1 32) : IVec S1536 1 :=
  Host.reduce IntOp.andi
    (andi (cmpi .sge ids (broadcastInDim S1536x1 ![] bcast_S_S1536x1 (constantI S_ 32 0#32)))
      (cmpi .sle ids (broadcastInDim S1536x1 ![0, 1] bcast_S1x1_S1536x1_0_1
        (broadcastInDim S1x1 ![1] bcast_S1_S1x1_1 (constantI S1 32 8#32)))))
    (constantI S_ 1 1#1) reducesTo_S1536x1_S1536_d1 h_S_

/-- The table's rows a column of ids names, a row whose range bit is not set replaced by the fill value. -/
private def taken (ok : IVec S1536 1) (ids : IVec S1536x1 32) (emb : FVec Ideal S9x512 .f32) : FVec Ideal S1536x512 .f32 :=
  select (broadcastInDim S1536x512 ![0] bcast_S1536_S1536x512_0 ok)
    (Host.gather gather_S9x512_S1536x1_S1536x512_1_0_n_n_0_1_1512 emb ids)
    (broadcastInDim S1536x512 ![] bcast_S_S1536x512 (constant (F := Ideal) S_ .f32 0x7FC00000#32))

/-- The looked-up rows beside the hidden state, along the columns. -/
private def beside (ok : IVec S1536 1) (ids : IVec S1536x1 32) (emb : FVec Ideal S9x512 .f32) (h : FVec Ideal S1536x512 .f32) :
    FVec Ideal S1536x1024 .f32 :=
  concatenate S1536x1024 1 [⟨S1536x512, taken ok ids emb⟩, ⟨S1536x512, h⟩] concatenates_S1536x512_S1536x512_S1536x1024_d1

/-- The row [x | h] as one term of the token ids, the table and the hidden state. -/
private def xhTerm (idx : IVec S1536 32) (emb : FVec Ideal S9x512 .f32) (h : FVec Ideal S1536x512 .f32) : FVec Ideal S1536x1024 .f32 :=
  beside (inRange (idCol idx)) (idCol idx) emb h

/-! ### Words: a token id below nine, read as a signed 32-bit word -/

/-- An id in [0, 9) is not negative, so it is not wrapped. -/
private theorem wrap_small : ∀ n : Fin 9,
    Scalar.select (IntOp.cmpi .slt (BitVec.ofNat 32 n.val) 0#32) (IntOp.addi (BitVec.ofNat 32 n.val) 9#32) (BitVec.ofNat 32 n.val)
      = BitVec.ofNat 32 n.val := by decide

/-- An id in [0, 9) passes the range test 0 ≤ i ≤ 8. -/
private theorem range_small : ∀ n : Fin 9,
    IntOp.andi (IntOp.cmpi .sge (BitVec.ofNat 32 n.val) 0#32) (IntOp.cmpi .sle (BitVec.ofNat 32 n.val) 8#32) = 1#1 := by decide

/-- An id in [0, 9), read signed and clamped into [0, 8], is itself. -/
private theorem clamp_small : ∀ n : Fin 9, min (BitVec.ofNat 32 n.val).toInt.toNat 8 = n.val := by decide

/-- A conjunction of bits that are all one, folded from one, is one. -/
private theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l (fun n hn => h n (List.mem_cons_of_mem _ hn))

/-! ### The id column, the range bits and the gather, read at an index -/

/-- The id column at row p holds the wrapped id of row p. -/
private theorem idCol_apply (idx : IVec S1536 32) (p : Fin 1536) (q : Fin 1) :
    idCol idx (ix2 p q) = Scalar.select (IntOp.cmpi .slt (idx (ix1 p)) 0#32) (IntOp.addi (idx (ix1 p)) 9#32) (idx (ix1 p)) := by
  unfold idCol
  refine (broadcastInDim_apply _ _ _ (ix2 p q) (ix1 p) (fun a => match a with | ⟨0, _⟩ => rfl)).trans ?_
  rfl

/-- With the ids in [0, 9) the id column holds the ids themselves. -/
private theorem idCol_small (idx : IVec S1536 32) (t : Fin 1536 → Fin 9) (ht : ∀ p, idx (ix1 p) = BitVec.ofNat 32 (t p).val)
    (p : Fin 1536) (q : Fin 1) : idCol idx (ix2 p q) = BitVec.ofNat 32 (t p).val := by
  rw [idCol_apply, ht p]; exact wrap_small (t p)

/-- A column of ids in [0, 9) has every range bit set. -/
private theorem inRange_small (ids : IVec S1536x1 32) (t : Fin 1536 → Fin 9)
    (hids : ∀ (p : Fin 1536) (q : Fin 1), ids (ix2 p q) = BitVec.ofNat 32 (t p).val) (p : Fin 1536) :
    inRange ids (ix1 p) = 1#1 := by
  unfold inRange
  rw [Host.reduce_eq_foldl]
  refine foldl_andi_ones _ _ (fun i _ => ?_)
  obtain ⟨a, b, rfl⟩ : ∃ (a : Fin 1536) (b : Fin 1), i = ix2 a b := ⟨i 0, i 1, eq_ix2 i⟩
  show IntOp.andi (IntOp.cmpi .sge (ids (ix2 a b)) _) (IntOp.cmpi .sle (ids (ix2 a b)) _) = 1#1
  rw [hids a b]
  exact range_small (t a)

/-- The row gather at (p, k): the table's row named by the id of row p, read signed and clamped into [0, 8], at
    column k. -/
private theorem gather_row_apply (emb : FVec Ideal S9x512 .f32) (ids : IVec S1536x1 32) (p : Fin 1536) (k : Fin 512) :
    Host.gather gather_S9x512_S1536x1_S1536x512_1_0_n_n_0_1_1512 emb ids (ix2 p k)
      = emb (ix2 (⟨min (ids (ix2 p (0 : Fin 1))).toInt.toNat 8, by omega⟩ : Fin 9) k) := by
  unfold Host.gather
  refine congrArg emb (funext fun a => Fin.ext ?_)
  match a with
  | ⟨0, _⟩ =>
    show gather_S9x512_S1536x1_S1536x512_1_0_n_n_0_1_1512.start (ix2 p k) ids 0
      + gather_S9x512_S1536x1_S1536x512_1_0_n_n_0_1_1512.batchCoord (ix2 p k) 0
      + gather_S9x512_S1536x1_S1536x512_1_0_n_n_0_1_1512.offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S9x512_S1536x1_S1536x512_1_0_n_n_0_1_1512.startIndexMap from List.mem_singleton.mpr rfl)]
    have hsi : gather_S9x512_S1536x1_S1536x512_1_0_n_n_0_1_1512.siIdx (ix2 p k)
        ⟨List.idxOf (0 : Fin 2) gather_S9x512_S1536x1_S1536x512_1_0_n_n_0_1_1512.startIndexMap,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show gather_S9x512_S1536x1_S1536x512_1_0_n_n_0_1_1512.start (ix2 p k) ids 1
      + gather_S9x512_S1536x1_S1536x512_1_0_n_n_0_1_1512.batchCoord (ix2 p k) 1
      + gather_S9x512_S1536x1_S1536x512_1_0_n_n_0_1_1512.offCoord (ix2 p k) 1 = k.val
    rw [GatherDims.batchCoord_eq_zero _ _ _ List.not_mem_nil]
    unfold GatherDims.start
    rw [dif_neg (show (1 : Fin 2) ∉ gather_S9x512_S1536x1_S1536x512_1_0_n_n_0_1_1512.startIndexMap from by decide)]
    simp only [Nat.add_zero, Nat.zero_add]
    rfl

/-- With every range bit set and the ids in [0, 9), the looked-up row of p is row t(p) of the table. -/
private theorem taken_small (ok : IVec S1536 1) (ids : IVec S1536x1 32) (emb : FVec Ideal S9x512 .f32) (t : Fin 1536 → Fin 9)
    (hok : ∀ p : Fin 1536, ok (ix1 p) = 1#1)
    (hids : ∀ (p : Fin 1536) (q : Fin 1), ids (ix2 p q) = BitVec.ofNat 32 (t p).val) (p : Fin 1536) (k : Fin 512) :
    taken ok ids emb (ix2 p k) = emb (ix2 (t p) k) := by
  unfold taken
  rw [select_apply]
  have hc : broadcastInDim S1536x512 ![0] bcast_S1536_S1536x512_0 ok (ix2 p k) = 1#1 :=
    (broadcastInDim_apply _ _ _ (ix2 p k) (ix1 p) (fun a => match a with | ⟨0, _⟩ => rfl)).trans (hok p)
  rw [hc, select_one, gather_row_apply]
  refine congrArg emb (congrArg (fun r => ix2 r k) (Fin.ext ?_))
  show min (ids (ix2 p (0 : Fin 1))).toInt.toNat 8 = (t p).val
  rw [hids p 0]
  exact clamp_small (t p)

/-- The left half of [x | h] is the looked-up rows … -/
private theorem beside_lo (ok : IVec S1536 1) (ids : IVec S1536x1 32) (emb : FVec Ideal S9x512 .f32) (h : FVec Ideal S1536x512 .f32)
    (p : Fin 1536) (k : Fin 512) : beside ok ids emb h (ix2 p (Spec.lo k)) = taken ok ids emb (ix2 p k) := by
  unfold beside
  exact concatenate_pair_apply_left (t := S1536x1024) (s₁ := S1536x512) (s₂ := S1536x512) (1 : Fin 2) (taken ok ids emb) h
    concatenates_S1536x512_S1536x512_S1536x1024_d1 (ix2 p (Spec.lo k)) rfl (ix2 p k)
    (fun b => match b with | ⟨0, _⟩ => rfl | ⟨1, _⟩ => rfl)

/-- … and the right half the hidden state. -/
private theorem beside_hi (ok : IVec S1536 1) (ids : IVec S1536x1 32) (emb : FVec Ideal S9x512 .f32) (h : FVec Ideal S1536x512 .f32)
    (p : Fin 1536) (k : Fin 512) : beside ok ids emb h (ix2 p (Spec.hi k)) = h (ix2 p k) := by
  unfold beside
  exact concatenate_pair_apply_right (t := S1536x1024) (s₁ := S1536x512) (s₂ := S1536x512) (1 : Fin 2) (taken ok ids emb) h
    concatenates_S1536x512_S1536x512_S1536x1024_d1 (ix2 p (Spec.hi k)) rfl rfl (ix2 p k)
    (fun b => match b with | ⟨0, _⟩ => fun _ => rfl | ⟨1, _⟩ => fun hb => absurd rfl hb) rfl

/-- With the token ids in [0, 9), row p of the left half of [x | h] is row t(p) of the table. -/
private theorem xhTerm_lo (idx : IVec S1536 32) (emb : FVec Ideal S9x512 .f32) (h : FVec Ideal S1536x512 .f32) (t : Fin 1536 → Fin 9)
    (ht : ∀ p, idx (ix1 p) = BitVec.ofNat 32 (t p).val) (p : Fin 1536) (k : Fin 512) :
    xhTerm idx emb h (ix2 p (Spec.lo k)) = emb (ix2 (t p) k) :=
  (beside_lo _ _ emb h p k).trans
    (taken_small _ _ emb t (inRange_small _ t (idCol_small idx t ht)) (idCol_small idx t ht) p k)

/-- The right half of [x | h] is the hidden state. -/
private theorem xhTerm_hi (idx : IVec S1536 32) (emb : FVec Ideal S9x512 .f32) (h : FVec Ideal S1536x512 .f32) (p : Fin 1536) (k : Fin 512) :
    xhTerm idx emb h (ix2 p (Spec.hi k)) = h (ix2 p k) :=
  beside_hi _ _ emb h p k

/-! ### The prefetched word and the side condition of the table-indexed windows -/

/-- Slab 2 of the nine decoder weight slabs lies inside the weight array … -/
private theorem slab_two_w : ∀ a : Fin 3,
    ((![(2#32 : BitVec 32).toNat, 0, 0] : Fin 3 → Nat) a + 1) * S1x512x128.size a ≤ S9x512x128.size a := by decide
/-- … and slab 2 of the nine bias slabs inside the bias array. -/
private theorem slab_two_b : ∀ a : Fin 3,
    ((![(2#32 : BitVec 32).toNat, 0, 0] : Fin 3 → Nat) a + 1) * S1x1x128.size a ≤ S9x1x128.size a := by decide

/-- With the prefetched word 2, the decoder windows' blocks are slab 2 of nine: inside the arrays. -/
private theorem ok0_of_two (pf : pre0.Contents (Elt Ideal)) (hpf : (pf 0 : IVec S1 32) = fun _ => 2#32) : ok0 (F := Ideal) pf := by
  unfold ok0
  refine ⟨fun i => ⟨?_, .inl rfl⟩, fun i => ⟨?_, .inl rfl⟩⟩
  · obtain ⟨x, hx⟩ : ∃ x : S1.Idx, cc0_transform_4 Gen.inb_S1_S1_0 Gen.numel1_S1 pf i = ![((pf 0 : IVec S1 32) x).toNat, 0, 0] := ⟨_, rfl⟩
    intro a
    rw [hx, congrFun hpf x]
    exact slab_two_w a
  · obtain ⟨x, hx⟩ : ∃ x : S1.Idx, cc0_transform_5 Gen.inb_S1_S1_0 Gen.numel1_S1 pf i = ![((pf 0 : IVec S1 32) x).toNat, 0, 0] := ⟨_, rfl⟩
    intro a
    rw [hx, congrFun hpf x]
    exact slab_two_b a

/-! ### The host operations before the region, in three stretches -/

/-- Through the id column. -/
private abbrev opsA : List (HloOp τ sig (Elt Ideal)) := (List.flatten [hostOps0, hostOps0_1]).take 9
/-- Through the range bits. -/
private abbrev opsB : List (HloOp τ sig (Elt Ideal)) := ((List.flatten [hostOps0, hostOps0_1]).drop 9).take 10
/-- The gather, the fill, the concatenation and the prefetched word. -/
private abbrev opsC : List (HloOp τ sig (Elt Ideal)) := ((List.flatten [hostOps0, hostOps0_1]).drop 9).drop 10

/-- The three stretches in order are all the operations before the region. -/
private theorem ops_split : (List.flatten [hostOps0, hostOps0_1] : List (HloOp τ sig (Elt Ideal))) = opsA ++ (opsB ++ opsC) := by
  simp only [opsA, opsB, opsC, List.take_append_drop]

/-! ### What the region finds -/

/-- The one prefetched word is the constant 2: the decoder head. -/
theorem tbl_val : (tbl m 0 : IVec S1 32) = fun _ => 2#32 := by
  unfold Gen.tbl
  show V m 0 main_call0_v3 = _
  dsimp only [Gen.V, Gen.V0]
  simp only [Gen.hostOps0, Gen.hostOps0_1, List.flatten_cons, List.flatten_nil, List.append_nil, List.cons_append,
    List.nil_append]
  after_results
  rfl

/-- Head 2's slab lies inside the nine-head arrays. -/
theorem ok : Ok m := ok0_of_two (tbl m) (tbl_val m)

/-- The array [x | h] the region finds is the looked-up rows beside the hidden state, of the arguments as launched. -/
private theorem xh_eq (c : Dev nD) : (V m c main_call0_v1 : FVec Ideal S1536x1024 .f32)
    = xhTerm (m ((c : Thread nD τ).loc main_arg0)) (m ((c : Thread nD τ).loc main_arg3)) (m ((c : Thread nD τ).loc main_arg1)) := by
  show StableHlo.after (List.flatten [hostOps0, hostOps0_1]) (fun b => m (c, b)) (Proc.devRef .tc main_call0_v1) = _
  rw [ops_split, StableHlo.after_append, StableHlo.after_append]
  -- the first stretch: the id column; the table and the hidden state untouched
  have hA5 : (StableHlo.after opsA (fun b => m (c, b)) (Proc.devRef .tc main_call0_call0_v5) : IVec S1536x1 32)
      = idCol (m ((c : Thread nD τ).loc main_arg0)) := by
    simp only [opsA, Gen.hostOps0, Gen.hostOps0_1, List.flatten_cons, List.flatten_nil, List.append_nil, List.cons_append,
      List.nil_append, List.take_succ_cons, List.take_zero]
    after_results
    rfl
  have hA1 : (StableHlo.after opsA (fun b => m (c, b)) (Proc.devRef .tc main_arg1) : FVec Ideal S1536x512 .f32)
      = m ((c : Thread nD τ).loc main_arg1) := by
    simp only [opsA, Gen.hostOps0, Gen.hostOps0_1, List.flatten_cons, List.flatten_nil, List.append_nil, List.cons_append,
      List.nil_append, List.take_succ_cons, List.take_zero]
    after_results
  have hA3 : (StableHlo.after opsA (fun b => m (c, b)) (Proc.devRef .tc main_arg3) : FVec Ideal S9x512 .f32)
      = m ((c : Thread nD τ).loc main_arg3) := by
    simp only [opsA, Gen.hostOps0, Gen.hostOps0_1, List.flatten_cons, List.flatten_nil, List.append_nil, List.cons_append,
      List.nil_append, List.take_succ_cons, List.take_zero]
    after_results
  generalize StableHlo.after opsA (fun b => m (c, b)) = WA at hA5 hA1 hA3 ⊢
  -- the second stretch: the range bits of the id column; the column, the table and the hidden state untouched
  have hB12 : (StableHlo.after opsB WA (Proc.devRef .tc main_call0_call0_v12) : IVec S1536 1)
      = inRange (WA (Proc.devRef .tc main_call0_call0_v5)) := by
    simp only [opsB, Gen.hostOps0, Gen.hostOps0_1, List.flatten_cons, List.flatten_nil, List.append_nil, List.cons_append,
      List.nil_append, List.take_succ_cons, List.take_zero, List.drop_succ_cons, List.drop_zero]
    after_results
    rfl
  have hB5 : (StableHlo.after opsB WA (Proc.devRef .tc main_call0_call0_v5) : IVec S1536x1 32)
      = WA (Proc.devRef .tc main_call0_call0_v5) := by
    simp only [opsB, Gen.hostOps0, Gen.hostOps0_1, List.flatten_cons, List.flatten_nil, List.append_nil, List.cons_append,
      List.nil_append, List.take_succ_cons, List.take_zero, List.drop_succ_cons, List.drop_zero]
    after_results
  have hB1 : (StableHlo.after opsB WA (Proc.devRef .tc main_arg1) : FVec Ideal S1536x512 .f32)
      = WA (Proc.devRef .tc main_arg1) := by
    simp only [opsB, Gen.hostOps0, Gen.hostOps0_1, List.flatten_cons, List.flatten_nil, List.append_nil, List.cons_append,
      List.nil_append, List.take_succ_cons, List.take_zero, List.drop_succ_cons, List.drop_zero]
    after_results
  have hB3 : (StableHlo.after opsB WA (Proc.devRef .tc main_arg3) : FVec Ideal S9x512 .f32)
      = WA (Proc.devRef .tc main_arg3) := by
    simp only [opsB, Gen.hostOps0, Gen.hostOps0_1, List.flatten_cons, List.flatten_nil, List.append_nil, List.cons_append,
      List.nil_append, List.take_succ_cons, List.take_zero, List.drop_succ_cons, List.drop_zero]
    after_results
  generalize StableHlo.after opsB WA = WB at hB12 hB5 hB1 hB3 ⊢
  -- the third stretch: the gather, the fill and the concatenation, of what the first two left
  simp only [opsC, Gen.hostOps0, Gen.hostOps0_1, List.flatten_cons, List.flatten_nil, List.append_nil, List.cons_append,
    List.nil_append, List.drop_succ_cons, List.drop_zero]
  after_results
  show beside (WB (Proc.devRef .tc main_call0_call0_v12)) (WB (Proc.devRef .tc main_call0_call0_v5))
    (WB (Proc.devRef .tc main_arg3)) (WB (Proc.devRef .tc main_arg1)) = _
  rw [hB12, hB5, hB1, hB3, hA5, hA1, hA3]
  rfl

/-- The left half of the row [x | h] the region finds: the embedding row of the token, when the token is in range. -/
theorem xh_lo (c : Dev nD) (he : ∀ p : Fin 1536, m ((c : Thread nD τ).loc main_arg0) (ix1 p) = BitVec.ofNat 32 (e p).val)
    (p : Fin 1536) (k : Fin 512) :
    (V m c main_call0_v1 : FVec Ideal S1536x1024 .f32) (ix2 p (Spec.lo k)) = (m ((c : Thread nD τ).loc main_arg3) : FVec Ideal S9x512 .f32) (ix2 (e p) k) :=
  (congrFun (xh_eq m c) (ix2 p (Spec.lo k))).trans (xhTerm_lo _ _ _ e he p k)

/-- The right half of the row [x | h]: the hidden state. -/
theorem xh_hi (c : Dev nD) (p : Fin 1536) (k : Fin 512) :
    (V m c main_call0_v1 : FVec Ideal S1536x1024 .f32) (ix2 p (Spec.hi k)) = (m ((c : Thread nD τ).loc main_arg1) : FVec Ideal S1536x512 .f32) (ix2 p k) :=
  (congrFun (xh_eq m c) (ix2 p (Spec.hi k))).trans (xhTerm_hi _ _ _ p k)

end Cert.ReferenceIdeal.Hand

end
-- ==== Proof.RefValue.lean ====
import proofs.«139382_g2000601216510222_pallasbulk_1026_5_alg».proof.Proof.RefPieces
import proofs.«139382_g2000601216510222_pallasbulk_1026_5_alg».proof.Proof.RefPayload
import proofs.«139382_g2000601216510222_pallasbulk_1026_5_alg».proof.Proof.RefHost

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (e : Fin 1536 → Fin 9)

namespace RefValue

section Generic
variable {F : FTy → Type} [FloatOps F]

/-! The windows whose block is their whole array sit at block index zero on every axis, so reading the array through the
    block gives the array back, and what the single grid point writes back is the whole staging buffer. -/

theorem off0 (a : (pcfg0 (F := F)).Adm) (t : Fin (cfg0 a).N) :
    (fun x => ((cfg0 a).win 0).index t x * main_call0_v1.ty.shape.size x) = fun _ => 0 :=
  funext fun x => by fin_cases x <;> rfl
theorem off1 (a : (pcfg0 (F := F)).Adm) (t : Fin (cfg0 a).N) :
    (fun x => ((cfg0 a).win 1).index t x * main_arg2.ty.shape.size x) = fun _ => 0 :=
  funext fun x => by fin_cases x <;> rfl
theorem off2 (a : (pcfg0 (F := F)).Adm) (t : Fin (cfg0 a).N) :
    (fun x => ((cfg0 a).win 2).index t x * main_arg4.ty.shape.size x) = fun _ => 0 :=
  funext fun x => by fin_cases x <;> rfl
theorem off3 (a : (pcfg0 (F := F)).Adm) (t : Fin (cfg0 a).N) :
    (fun x => ((cfg0 a).win 3).index t x * main_arg5.ty.shape.size x) = fun _ => 0 :=
  funext fun x => by fin_cases x <;> rfl
theorem off6 (a : (pcfg0 (F := F)).Adm) (t : Fin (cfg0 a).N) :
    (fun x => ((cfg0 a).win 6).index t x * main_v0_0.ty.shape.size x) = fun _ => 0 :=
  funext fun x => by fin_cases x <;> rfl
theorem off7 (a : (pcfg0 (F := F)).Adm) (t : Fin (cfg0 a).N) :
    (fun x => ((cfg0 a).win 7).index t x * main_v0_1.ty.shape.size x) = fun _ => 0 :=
  funext fun x => by fin_cases x <;> rfl
theorem off8 (a : (pcfg0 (F := F)).Adm) (t : Fin (cfg0 a).N) :
    (fun x => ((cfg0 a).win 8).index t x * main_v0_2.ty.shape.size x) = fun _ => 0 :=
  funext fun x => by fin_cases x <;> rfl

theorem blk0 (a : (pcfg0 (F := F)).Adm) (t : Fin (cfg0 a).N) (f : Vec F S1536x1024 .f32) :
    (((cfg0 a).win 0).blk t).view.read (Elt F) f = f :=
  Memref.read_access_unit_zero (Elt F) main_call0_v1 (off0 a t) (fun x => by rw [congrFun (off0 a t) x]; simp) f
theorem blk1 (a : (pcfg0 (F := F)).Adm) (t : Fin (cfg0 a).N) (f : Vec F S1536x512 .f32) :
    (((cfg0 a).win 1).blk t).view.read (Elt F) f = f :=
  Memref.read_access_unit_zero (Elt F) main_arg2 (off1 a t) (fun x => by rw [congrFun (off1 a t) x]; simp) f
theorem blk2 (a : (pcfg0 (F := F)).Adm) (t : Fin (cfg0 a).N) (f : Vec F S1024x2048 .f32) :
    (((cfg0 a).win 2).blk t).view.read (Elt F) f = f :=
  Memref.read_access_unit_zero (Elt F) main_arg4 (off2 a t) (fun x => by rw [congrFun (off2 a t) x]; simp) f
theorem blk3 (a : (pcfg0 (F := F)).Adm) (t : Fin (cfg0 a).N) (f : Vec F S1x2048 .f32) :
    (((cfg0 a).win 3).blk t).view.read (Elt F) f = f :=
  Memref.read_access_unit_zero (Elt F) main_arg5 (off3 a t) (fun x => by rw [congrFun (off3 a t) x]; simp) f

theorem read6 (a : (pcfg0 (F := F)).Adm) (t : Fin (cfg0 a).N) (X : Vec F S1536x128 .f32) :
    ((cfg0 a).win 6).cut ((cfg0 a).grid.coords t) X = (((cfg0 a).win 6).blk t).view.read (Elt F) X :=
  (Memref.read_access_unit_zero (Elt F) main_v0_0 (off6 a t) (fun x => by rw [congrFun (off6 a t) x]; simp) X).symm
theorem read7 (a : (pcfg0 (F := F)).Adm) (t : Fin (cfg0 a).N) (X : Vec F S1536x512 .f32) :
    ((cfg0 a).win 7).cut ((cfg0 a).grid.coords t) X = (((cfg0 a).win 7).blk t).view.read (Elt F) X :=
  (Memref.read_access_unit_zero (Elt F) main_v0_1 (off7 a t) (fun x => by rw [congrFun (off7 a t) x]; simp) X).symm
theorem read8 (a : (pcfg0 (F := F)).Adm) (t : Fin (cfg0 a).N) (X : Vec F S1536x512 .f32) :
    ((cfg0 a).win 8).cut ((cfg0 a).grid.coords t) X = (((cfg0 a).win 8).blk t).view.read (Elt F) X :=
  (Memref.read_access_unit_zero (Elt F) main_v0_2 (off8 a t) (fun x => by rw [congrFun (off8 a t) x]; simp) X).symm

set_option backward.isDefEq.respectTransparency.types false in
theorem cover6 (a : (pcfg0 (F := F)).Adm) (t : Fin (cfg0 a).N) (i : S1536x128.Idx) :
    i ∈ (((cfg0 a).win 6).blk t).view.set := by
  show i ∈ ((View.whole main_v0_0).slice (((cfg0 a).win 6).rect t)).set
  rw [View.set_slice_whole]
  exact View.mem_set_unit_zero (S := S1536x128) (off6 a t) _ i

set_option backward.isDefEq.respectTransparency.types false in
theorem cover7 (a : (pcfg0 (F := F)).Adm) (t : Fin (cfg0 a).N) (i : S1536x512.Idx) :
    i ∈ (((cfg0 a).win 7).blk t).view.set := by
  show i ∈ ((View.whole main_v0_1).slice (((cfg0 a).win 7).rect t)).set
  rw [View.set_slice_whole]
  exact View.mem_set_unit_zero (S := S1536x512) (off7 a t) _ i

set_option backward.isDefEq.respectTransparency.types false in
theorem cover8 (a : (pcfg0 (F := F)).Adm) (t : Fin (cfg0 a).N) (i : S1536x512.Idx) :
    i ∈ (((cfg0 a).win 8).blk t).view.set := by
  show i ∈ ((View.whole main_v0_2).slice (((cfg0 a).win 8).rect t)).set
  rw [View.set_slice_whole]
  exact View.mem_set_unit_zero (S := S1536x512) (off8 a t) _ i

/-! The two decoder windows take their block along axis 0 at the prefetched word: with that word 2, the block's entry
    (0, k, l) is the array's entry (2, k, l). The word stays a variable here. -/

set_option backward.isDefEq.respectTransparency.types false in
theorem blk4 (a : (pcfg0 (F := F)).Adm) (hw : ∀ j, a.1 0 j = 2#32) (t : Fin (cfg0 a).N) (f : Vec F S9x512x128 .f32)
    (k : Fin 512) (l : Fin 128) :
    (((cfg0 a).win 4).blk t).view.read (Elt F) f (ix3 (0 : Fin 1) k l) = f (ix3 (2 : Fin 9) k l) := by
  rw [View.read_apply]
  show f _ = f _
  refine congrArg f ?_
  funext x
  apply Fin.ext
  refine (Pipeline.Window.rect_emb_val ((cfg0 a).win 4) t (ix3 (0 : Fin 1) k l) x).trans ?_
  match x with
  | ⟨0, _⟩ => show (a.1 0 _).toNat * 1 + 0 = 2; rw [hw]; rfl
  | ⟨1, _⟩ => show 0 * 512 + k.val = k.val; omega
  | ⟨2, _⟩ => show 0 * 128 + l.val = l.val; omega

set_option backward.isDefEq.respectTransparency.types false in
theorem blk5 (a : (pcfg0 (F := F)).Adm) (hw : ∀ j, a.1 0 j = 2#32) (t : Fin (cfg0 a).N) (f : Vec F S9x1x128 .f32)
    (l : Fin 128) :
    (((cfg0 a).win 5).blk t).view.read (Elt F) f (ix3 (0 : Fin 1) (0 : Fin 1) l) = f (ix3 (2 : Fin 9) (0 : Fin 1) l) := by
  rw [View.read_apply]
  show f _ = f _
  refine congrArg f ?_
  funext x
  apply Fin.ext
  refine (Pipeline.Window.rect_emb_val ((cfg0 a).win 5) t (ix3 (0 : Fin 1) (0 : Fin 1) l) x).trans ?_
  match x with
  | ⟨0, _⟩ => show (a.1 0 _).toNat * 1 + 0 = 2; rw [hw]; rfl
  | ⟨1, _⟩ => show 0 * 1 + 0 = 0; rfl
  | ⟨2, _⟩ => show 0 * 128 + l.val = l.val; omega

end Generic

/-! The arrays the one grid point loads, each named at its literal type. -/

/-- The row [x | h] as the region finds it. -/
abbrev X0 (c : Dev nD) : Vec Ideal S1536x1024 .f32 := V m c main_call0_v1
/-- The cell state. -/
abbrev X1 (c : Dev nD) : Vec Ideal S1536x512 .f32 := m ((c : Thread nD τ).loc main_arg2)
/-- The fused weight. -/
abbrev X2 (c : Dev nD) : Vec Ideal S1024x2048 .f32 := m ((c : Thread nD τ).loc main_arg4)
/-- The bias. -/
abbrev X3 (c : Dev nD) : Vec Ideal S1x2048 .f32 := m ((c : Thread nD τ).loc main_arg5)
/-- The decoder head's weight slab. -/
abbrev X4 (hO : Ok m) (c : Dev nD) : Vec Ideal S1x512x128 .f32 := iblk m hO c 4 t0_0
/-- The decoder head's bias slab. -/
abbrev X5 (hO : Ok m) (c : Dev nD) : Vec Ideal S1x1x128 .f32 := iblk m hO c 5 t0_0

/-! ## The blocks the one grid point loads -/

/-- The blocks at the one point, each at its literal type. -/
abbrev B0 (hO : Ok m) (c : Dev nD) : Vec Ideal S1536x1024 .f32 := iblk m hO c 0 t0_0
abbrev B1 (hO : Ok m) (c : Dev nD) : Vec Ideal S1536x512 .f32 := iblk m hO c 1 t0_0
abbrev B2 (hO : Ok m) (c : Dev nD) : Vec Ideal S1024x2048 .f32 := iblk m hO c 2 t0_0
abbrev B3 (hO : Ok m) (c : Dev nD) : Vec Ideal S1x2048 .f32 := iblk m hO c 3 t0_0

/-- The row [x | h]'s block is the whole row array. -/
theorem B0_eq (hO : Ok m) (c : Dev nD) : B0 m hO c = X0 m c := by
  unfold B0 iblk
  exact blk0 (adm m hO) t0_0 (V m c main_call0_v1)
/-- The cell state's block is the whole argument. -/
theorem B1_eq (hO : Ok m) (c : Dev nD) : B1 m hO c = X1 m c := by
  unfold B1 iblk
  exact (blk1 (adm m hO) t0_0 (V m c main_arg2)).trans (V_main_arg2 m c)
/-- The fused weight's block is the whole argument. -/
theorem B2_eq (hO : Ok m) (c : Dev nD) : B2 m hO c = X2 m c := by
  unfold B2 iblk
  exact (blk2 (adm m hO) t0_0 (V m c main_arg4)).trans (V_main_arg4 m c)
/-- The bias's block is the whole argument. -/
theorem B3_eq (hO : Ok m) (c : Dev nD) : B3 m hO c = X3 m c := by
  unfold B3 iblk
  exact (blk3 (adm m hO) t0_0 (V m c main_arg5)).trans (V_main_arg5 m c)

/-- The decoder weight's block is head 2's slab of the argument. -/
theorem x4_apply (hO : Ok m) (c : Dev nD) (k : Fin 512) (l : Fin 128) :
    X4 m hO c (ix3 (0 : Fin 1) k l) = (m ((c : Thread nD τ).loc main_arg6) : Spec.A3 9 512 128) (ix3 (2 : Fin 9) k l) := by
  unfold X4 iblk
  exact (blk4 (adm m hO) (fun j => congrFun (tbl_val m) j) t0_0 (V m c main_arg6) k l).trans (congrFun (V_main_arg6 m c) _)
/-- The decoder bias's block is head 2's slab of the argument. -/
theorem x5_apply (hO : Ok m) (c : Dev nD) (l : Fin 128) :
    X5 m hO c (ix3 (0 : Fin 1) (0 : Fin 1) l) = (m ((c : Thread nD τ).loc main_arg7) : Spec.A3 9 1 128) (ix3 (2 : Fin 9) (0 : Fin 1) l) := by
  unfold X5 iblk
  exact (blk5 (adm m hO) (fun j => congrFun (tbl_val m) j) t0_0 (V m c main_arg7) l).trans (congrFun (V_main_arg7 m c) _)

/-! ## What the point writes back, and the three result arrays -/

/-- The padded logits the point leaves. -/
abbrev G6 (hO : Ok m) (c : Dev nD) : Buf (Elt Ideal) ((c : Thread nD τ).loc main_v0_0) :=
  k0_pay4 (B0 m hO c) (B1 m hO c) (B2 m hO c) (B3 m hO c) (X4 m hO c) (X5 m hO c)
/-- The hidden state the point leaves. -/
abbrev G7 (hO : Ok m) (c : Dev nD) : Buf (Elt Ideal) ((c : Thread nD τ).loc main_v0_1) :=
  k0_pay3 (B0 m hO c) (B1 m hO c) (B2 m hO c) (B3 m hO c)
/-- The cell state the point leaves. -/
abbrev G8 (hO : Ok m) (c : Dev nD) : Buf (Elt Ideal) ((c : Thread nD τ).loc main_v0_2) :=
  k0_pay2 (B0 m hO c) (B1 m hO c) (B2 m hO c) (B3 m hO c)

set_option backward.isDefEq.respectTransparency.types false in
/-- What the body leaves in the three staging buffers at the one point: the three payloads of the loaded blocks. -/
theorem outs_eq (hO : Ok m) (c : Dev nD) :
    outsAt0 m hO c t0_0 = (G6 m hO c, G7 m hO c, G8 m hO c) := by
  unfold outsAt0
  rw [out6_eq, out7_eq, out8_eq]

/-- The one write-back of the padded logits writes the whole array. -/
theorem flushed6 (hO : Ok m) (c : Dev nD) (t : Fin (cfgM m hO).N) (hf : ((cfgM m hO).win 6).flush t = true) :
    (dats m hO 0 c).flushed 6 t = (((cfgM m hO).win 6).blk t).view.read (Elt Ideal) (G6 m hO c) := by
  obtain rfl : t = t0_0 := fin_N0 t
  show ((cfgM m hO).win 6).cut ((cfgM m hO).grid.coords t0_0) ((dats m hO 0 c).after 6 t0_0) = _
  rw [after0_6, outs_eq]
  exact read6 (adm m hO) t0_0 (G6 m hO c)
/-- The one write-back of the hidden state writes the whole array. -/
theorem flushed7 (hO : Ok m) (c : Dev nD) (t : Fin (cfgM m hO).N) (hf : ((cfgM m hO).win 7).flush t = true) :
    (dats m hO 0 c).flushed 7 t = (((cfgM m hO).win 7).blk t).view.read (Elt Ideal) (G7 m hO c) := by
  obtain rfl : t = t0_0 := fin_N0 t
  show ((cfgM m hO).win 7).cut ((cfgM m hO).grid.coords t0_0) ((dats m hO 0 c).after 7 t0_0) = _
  rw [after0_7, outs_eq]
  exact read7 (adm m hO) t0_0 (G7 m hO c)
/-- The one write-back of the cell state writes the whole array. -/
theorem flushed8 (hO : Ok m) (c : Dev nD) (t : Fin (cfgM m hO).N) (hf : ((cfgM m hO).win 8).flush t = true) :
    (dats m hO 0 c).flushed 8 t = (((cfgM m hO).win 8).blk t).view.read (Elt Ideal) (G8 m hO c) := by
  obtain rfl : t = t0_0 := fin_N0 t
  show ((cfgM m hO).win 8).cut ((cfgM m hO).grid.coords t0_0) ((dats m hO 0 c).after 8 t0_0) = _
  rw [after0_8, outs_eq]
  exact read8 (adm m hO) t0_0 (G8 m hO c)

/-- So the padded logits' array ends holding the payload. -/
theorem final6 (hO : Ok m) (c : Dev nD) : (dats m hO 0 c).arrAt 6 (cfgM m hO).N = G6 m hO c :=
  (dats m hO 0 c).arrAt_eq_of_cover 6 (G6 m hO c) (flushed6 m hO c) fun i =>
    ⟨t0_0, flush0_6 (adm m hO) t0_0, cover6 (adm m hO) t0_0 i⟩
/-- The hidden state's array ends holding the payload. -/
theorem final7 (hO : Ok m) (c : Dev nD) : (dats m hO 0 c).arrAt 7 (cfgM m hO).N = G7 m hO c :=
  (dats m hO 0 c).arrAt_eq_of_cover 7 (G7 m hO c) (flushed7 m hO c) fun i =>
    ⟨t0_0, flush0_7 (adm m hO) t0_0, cover7 (adm m hO) t0_0 i⟩
/-- The cell state's array ends holding the payload. -/
theorem final8 (hO : Ok m) (c : Dev nD) : (dats m hO 0 c).arrAt 8 (cfgM m hO).N = G8 m hO c :=
  (dats m hO 0 c).arrAt_eq_of_cover 8 (G8 m hO c) (flushed8 m hO c) fun i =>
    ⟨t0_0, flush0_8 (adm m hO) t0_0, cover8 (adm m hO) t0_0 i⟩

/-- The one host operation after the region slices the padded logits to their first four lanes. -/
theorem tail_v1 (hO : Ok m) (c : Dev nD) :
    Pipeline.afterTail pcfgs (fun _ => adm m hO) (dats m hO) 0 (V0 m) [hostOps1] c main_v1
      = extractStridedSlice S1536x4 ![0, 0] (G6 m hO c) slices_S1536x128_S1536x4_0_0 := by
  unfold Pipeline.afterTail
  show StableHlo.after hostOps1 _ (Proc.devRef .tc main_v1) = _
  after_results
  rw [(Pipeline.withArrays_arr spec0 (launch0 (F := Ideal)).win.arr_inj c _ _ 6).trans (final6 m hO c)]

/-! ## The payloads are the specification, entry by entry -/

/-- A sum over the 1024 rows of the fused weight is the sum over its upper 512 rows plus the sum over its lower 512. -/
theorem sum_split (f : Fin 1024 → EReal) :
    (∑ k : Fin 1024, f k) = (∑ k : Fin 512, f (Spec.lo k)) + ∑ k : Fin 512, f (Spec.hi k) := by
  refine (Fin.sum_univ_add (a := 512) (b := 512) f).trans ?_
  refine congrArg₂ (· + ·) (Finset.sum_congr rfl fun k _ => congrArg f (Fin.ext rfl))
    (Finset.sum_congr rfl fun k _ => congrArg f (Fin.ext ?_))
  show 512 + k.val = k.val + 512
  omega

/-- The gate pre-activations are the specification's. -/
theorem gate_eq (c : Dev nD) (he : ∀ p : Fin 1536, m ((c : Thread nD τ).loc main_arg0) (ix1 p) = BitVec.ofNat 32 (e p).val)
    (p : Fin 1536) (j : Fin 2048) :
    k0_pay1 (F := Ideal) (X0 m c) (X2 m c) (X3 m c) (ix2 p j)
      = Spec.gate e (m ((c : Thread nD τ).loc main_arg1)) (m ((c : Thread nD τ).loc main_arg3)) (m ((c : Thread nD τ).loc main_arg4)) (m ((c : Thread nD τ).loc main_arg5)) p j := by
  refine (gates_apply (X0 m c) (X2 m c) (X3 m c) p j).trans ?_
  unfold Spec.gate
  refine congrArg₂ (· + ·) ?_ rfl
  refine (sum_split fun k => X0 m c (ix2 p k) * X2 m c (ix2 k j)).trans ?_
  refine congrArg₂ (· + ·) (Finset.sum_congr rfl fun k _ => ?_) (Finset.sum_congr rfl fun k _ => ?_)
  · exact congrArg (· * X2 m c (ix2 (Spec.lo k) j)) (xh_lo m e c he p k)
  · exact congrArg (· * X2 m c (ix2 (Spec.hi k) j)) (xh_hi m c p k)

/-- The new cell state is the specification's. -/
theorem cx_eq (c : Dev nD) (he : ∀ p : Fin 1536, m ((c : Thread nD τ).loc main_arg0) (ix1 p) = BitVec.ofNat 32 (e p).val)
    (p : Fin 1536) (q : Fin 512) :
    k0_pay2 (F := Ideal) (X0 m c) (X1 m c) (X2 m c) (X3 m c) (ix2 p q)
      = Spec.cx e (m ((c : Thread nD τ).loc main_arg1)) (m ((c : Thread nD τ).loc main_arg2)) (m ((c : Thread nD τ).loc main_arg3)) (m ((c : Thread nD τ).loc main_arg4)) (m ((c : Thread nD τ).loc main_arg5)) p q := by
  refine (cx_apply (X0 m c) (X1 m c) (X2 m c) (X3 m c) p q).trans ?_
  unfold Spec.cx
  rw [gate_eq m e c he p (Spec.gF q), gate_eq m e c he p (Spec.gI q), gate_eq m e c he p (Spec.gG q)]

/-- The new hidden state is the specification's. -/
theorem hx_eq (c : Dev nD) (he : ∀ p : Fin 1536, m ((c : Thread nD τ).loc main_arg0) (ix1 p) = BitVec.ofNat 32 (e p).val)
    (p : Fin 1536) (q : Fin 512) :
    k0_pay3 (F := Ideal) (X0 m c) (X1 m c) (X2 m c) (X3 m c) (ix2 p q)
      = Spec.hx e (m ((c : Thread nD τ).loc main_arg1)) (m ((c : Thread nD τ).loc main_arg2)) (m ((c : Thread nD τ).loc main_arg3)) (m ((c : Thread nD τ).loc main_arg4)) (m ((c : Thread nD τ).loc main_arg5)) p q := by
  refine (hx_apply (X0 m c) (X1 m c) (X2 m c) (X3 m c) p q).trans ?_
  unfold Spec.hx
  rw [gate_eq m e c he p (Spec.gO q), cx_eq m e c he p q]

/-- The padded logits, at a lane the slice keeps, are the specification's logits. -/
theorem logit_eq (hO : Ok m) (c : Dev nD) (he : ∀ p : Fin 1536, m ((c : Thread nD τ).loc main_arg0) (ix1 p) = BitVec.ofNat 32 (e p).val)
    (p : Fin 1536) (r : Fin 4) :
    k0_pay4 (F := Ideal) (X0 m c) (X1 m c) (X2 m c) (X3 m c) (X4 m hO c) (X5 m hO c) (ix2 p (Spec.lane r))
      = Spec.logit e (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) p r := by
  refine (logits_apply (X0 m c) (X1 m c) (X2 m c) (X3 m c) (X4 m hO c) (X5 m hO c) p (Spec.lane r)).trans ?_
  unfold Spec.logit
  have hs : (∑ k : Fin 512, k0_pay3 (F := Ideal) (X0 m c) (X1 m c) (X2 m c) (X3 m c) (ix2 p k) * X4 m hO c (ix3 (0 : Fin 1) k (Spec.lane r)))
      = ∑ k : Fin 512, Spec.hx e (m ((c : Thread nD τ).loc main_arg1)) (m ((c : Thread nD τ).loc main_arg2)) (m ((c : Thread nD τ).loc main_arg3)) (m ((c : Thread nD τ).loc main_arg4)) (m ((c : Thread nD τ).loc main_arg5)) p k
          * (m ((c : Thread nD τ).loc main_arg6) : Spec.A3 9 512 128) (ix3 (2 : Fin 9) k (Spec.lane r)) :=
    Finset.sum_congr rfl fun k _ => by rw [hx_eq m e c he p k, x4_apply m hO c k (Spec.lane r)]
  rw [hs, x5_apply m hO c (Spec.lane r)]

/-! ## The payloads of the blocks are the payloads of the arrays -/

theorem G6_eq (hO : Ok m) (c : Dev nD) :
    G6 m hO c = k0_pay4 (X0 m c) (X1 m c) (X2 m c) (X3 m c) (X4 m hO c) (X5 m hO c) := by
  unfold G6
  rw [B0_eq, B1_eq, B2_eq, B3_eq]
theorem G7_eq (hO : Ok m) (c : Dev nD) : G7 m hO c = k0_pay3 (X0 m c) (X1 m c) (X2 m c) (X3 m c) := by
  unfold G7
  rw [B0_eq, B1_eq, B2_eq, B3_eq]
theorem G8_eq (hO : Ok m) (c : Dev nD) : G8 m hO c = k0_pay2 (X0 m c) (X1 m c) (X2 m c) (X3 m c) := by
  unfold G8
  rw [B0_eq, B1_eq, B2_eq, B3_eq]

/-- The slice to the first four lanes reads the padded array at the same row and lane. -/
theorem slice_apply (G : Vec Ideal S1536x128 .f32) (p : Fin 1536) (r : Fin 4) :
    extractStridedSlice S1536x4 ![0, 0] G slices_S1536x128_S1536x4_0_0 (ix2 p r) = G (ix2 p (Spec.lane r)) :=
  extractStridedSlice_apply (s := S1536x128) (t := S1536x4) ![0, 0] G slices_S1536x128_S1536x4_0_0 (ix2 p r) (ix2 p (Spec.lane r)) fun a => by
    match a with
    | ⟨0, _⟩ => show p.val = 0 + p.val; omega
    | ⟨1, _⟩ => show r.val = 0 + r.val; omega

end RefValue

/-- The reference's run with its three results named by the specification. -/
theorem run_spec (ec : Dev nD → Fin 1536 → Fin 9)
    (he : ∀ (c : Dev nD) (p : Fin 1536), m ((c : Thread nD τ).loc main_arg0) (ix1 p) = BitVec.ofNat 32 (ec c p).val) :
    θ_run defs (onTc (τ := τ) (main (F := Ideal))) ⟨m, fun _ => 0, ρ⟩ fun r => ∀ c : Dev nD,
      r.2.mem ((c : Thread nD τ).loc main_v1) = Spec.logitsA (ec c) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v0_1) = Spec.hxA (ec c) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = Spec.cxA (ec c) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  have hO : Ok m := ok m
  refine (θ_run defs _ _).mono (fun r h c => ?_) (run_main m ρ hO)
  refine ⟨?_, ?_, ?_, ?_, ?_, ?_, ?_, ?_, ?_, ?_, ?_⟩
  · refine ((h c).2 main_v1 (by decide : main_v1 ∈ Pipeline.restRefs sig spec0)).trans ((RefValue.tail_v1 m hO c).trans ?_)
    funext j
    obtain ⟨p, r', rfl⟩ : ∃ (p : Fin 1536) (r' : Fin 4), j = ix2 p r' := ⟨j 0, j 1, eq_ix2 j⟩
    exact (RefValue.slice_apply (RefValue.G6 m hO c) p r').trans ((congrFun (RefValue.G6_eq m hO c) (ix2 p (Spec.lane r'))).trans (RefValue.logit_eq m (ec c) hO c (he c) p r'))
  · refine ((h c).1 7).trans ((RefValue.final7 m hO c).trans ?_)
    funext j
    obtain ⟨p, q, rfl⟩ : ∃ (p : Fin 1536) (q : Fin 512), j = ix2 p q := ⟨j 0, j 1, eq_ix2 j⟩
    exact (congrFun (RefValue.G7_eq m hO c) (ix2 p q)).trans (RefValue.hx_eq m (ec c) c (he c) p q)
  · refine ((h c).1 8).trans ((RefValue.final8 m hO c).trans ?_)
    funext j
    obtain ⟨p, q, rfl⟩ : ∃ (p : Fin 1536) (q : Fin 512), j = ix2 p q := ⟨j 0, j 1, eq_ix2 j⟩
    exact (congrFun (RefValue.G8_eq m hO c) (ix2 p q)).trans (RefValue.cx_eq m (ec c) c (he c) p q)
  · exact ((h c).2 main_arg0 (by decide : main_arg0 ∈ Pipeline.restRefs sig spec0)).trans (W_main_arg0 m hO (dats m hO) c)
  · exact ((h c).2 main_arg1 (by decide : main_arg1 ∈ Pipeline.restRefs sig spec0)).trans (W_main_arg1 m hO (dats m hO) c)
  · exact ((h c).1 1).trans (((dats m hO 0 c).arrAt_in 1 rfl _).trans ((A_eq m hO c 1).trans (V_main_arg2 m c)))
  · exact ((h c).2 main_arg3 (by decide : main_arg3 ∈ Pipeline.restRefs sig spec0)).trans (W_main_arg3 m hO (dats m hO) c)
  · exact ((h c).1 2).trans (((dats m hO 0 c).arrAt_in 2 rfl _).trans ((A_eq m hO c 2).trans (V_main_arg4 m c)))
  · exact ((h c).1 3).trans (((dats m hO 0 c).arrAt_in 3 rfl _).trans ((A_eq m hO c 3).trans (V_main_arg5 m c)))
  · exact ((h c).1 4).trans (((dats m hO 0 c).arrAt_in 4 rfl _).trans ((A_eq m hO c 4).trans (V_main_arg6 m c)))
  · exact ((h c).1 5).trans (((dats m hO 0 c).arrAt_in 5 rfl _).trans ((A_eq m hO c 5).trans (V_main_arg7 m c)))

end Cert.ReferenceIdeal.Hand

end
-- ==== Proof.PreRange.lean ====
import proofs.«139382_g2000601216510222_pallasbulk_1026_5_alg».proof.Pre_finite_inputs
import proofs.«139382_g2000601216510222_pallasbulk_1026_5_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.Proof.PreRange

open Idealize.ShloMosaic Idealize.ShloMosaic.ValueIdx

/-- A 32-bit word that is at least 0 and below 9 when read signed is below 9 when read unsigned:
    a word whose unsigned value is 2³¹ or more reads negative. -/
private theorem toNat_lt_nine (w : BitVec 32) (h0 : IntOp.cmpi .sge w 0#32 = 1#1)
    (h9 : IntOp.cmpi .slt w 9#32 = 1#1) : w.toNat < 9 := by
  rw [IntOp.cmpi_sge] at h0
  rw [IntOp.cmpi_slt] at h9
  have z : (0#32 : BitVec 32).toInt = 0 := by decide
  have n : (9#32 : BitVec 32).toInt = 9 := by decide
  rw [z] at h0
  rw [n] at h9
  have hw := w.isLt
  rw [BitVec.toInt_eq_toNat_cond] at h0 h9
  split at h0 <;> omega

/-- Under the precondition every token id is one of 0, …, 8. -/
theorem tokens_in_range {F : FTy → Type} [FloatOps F] [hP : Cert.Pre_finite_inputs.Facts]
    (a0 : IVec Cert.Pre_finite_inputs.S1536 32) (a1 a2 : FVec F Cert.Pre_finite_inputs.S1536x512 .f32)
    (a3 : FVec F Cert.Pre_finite_inputs.S9x512 .f32) (a4 : FVec F Cert.Pre_finite_inputs.S1024x2048 .f32)
    (a5 : FVec F Cert.Pre_finite_inputs.S1x2048 .f32) (a6 : FVec F Cert.Pre_finite_inputs.S9x512x128 .f32)
    (a7 : FVec F Cert.Pre_finite_inputs.S9x1x128 .f32)
    (h : Cert.Pre_finite_inputs.fn (F := F) a0 a1 a2 a3 a4 a5 a6 a7 = fun _ => 1#1) :
    ∃ e : Fin 1536 → Fin 9, ∀ p : Fin 1536, a0 (ix1 p) = BitVec.ofNat 32 (e p).val := by
  -- the predicate at its one index: a conjunction whose last two conjuncts are the two range tests
  have e := congrFun h ix0
  unfold Cert.Pre_finite_inputs.fn Cert.Pre_finite_inputs.fn_part1 Cert.Pre_finite_inputs.fn_part2 at e
  dsimp only [andi] at e
  rw [IntOp.andi_eq_one, IntOp.andi_eq_one] at e
  obtain ⟨⟨-, hge⟩, hlt⟩ := e
  -- the scalar shape has exactly one index, so each reduction is over every position:
  -- each test holds at every position
  haveI : Subsingleton Cert.Pre_finite_inputs.S_.Idx := ⟨fun a b => funext fun d => d.elim0⟩
  have bound : ∀ p : Fin 1536, (a0 (ix1 p)).toNat < 9 := fun p => by
    have g := Host.reduce_andi_all _ _ _ _ _ hge (ix1 p)
    have l := Host.reduce_andi_all _ _ _ _ _ hlt (ix1 p)
    exact toNat_lt_nine _ g l
  exact ⟨fun p => ⟨(a0 (ix1 p)).toNat, bound p⟩, fun p => by
    apply BitVec.eq_of_toNat_eq
    rw [BitVec.toNat_ofNat]
    exact (Nat.mod_eq_of_lt (a0 (ix1 p)).isLt).symm⟩

end Cert.Proof.PreRange

end
-- ==== Proof.lean ====
/-
  The certificate of one fused controller step (embedding lookup, LSTM cell, decoder head 2, temperature scaling and
  a scaled tanh) against its reference, over the extended reals.

  Both programs compute, for every batch row p with token id e(p), the arrays of Proof/Spec.lean: the new cell state,
  the new hidden state and four logits. The kernel looks the embedding row up by a product with a one-hot row and
  splits the fused gate product into an embedding half (with the bias folded in) and a hidden half; the reference
  gathers the embedding row on the host, concatenates it with the hidden state and takes one product of length 1024.
  On the extended reals the two gate pre-activations differ only in the grouping of a sum, so no finiteness is used.

  The precondition carries, besides the finiteness of the float inputs, that every token id lies in [0, 9): outside
  that range the reference's lookup is a fill value (or a wrapped row) while the one-hot row is zero.

  The kernel's frame and the reference's frame are the generated ones (the reference's under the side condition
  that the prefetched decoder head, the constant 2, selects a slab inside the nine-head arrays); the two value legs
  are Proof/KernelBlocks.lean and Proof/RefValue.lean; the token range is read out of the precondition in
  Proof/PreRange.lean.
-/
import proofs.«139382_g2000601216510222_pallasbulk_1026_5_alg».proof.Defs
import proofs.«139382_g2000601216510222_pallasbulk_1026_5_alg».proof.Proof.Gen.Kernel
import proofs.«139382_g2000601216510222_pallasbulk_1026_5_alg».proof.Proof.Gen.Kernel.Frame
import proofs.«139382_g2000601216510222_pallasbulk_1026_5_alg».proof.Proof.Gen.KernelIdeal
import proofs.«139382_g2000601216510222_pallasbulk_1026_5_alg».proof.Proof.Gen.KernelIdeal.Frame
import proofs.«139382_g2000601216510222_pallasbulk_1026_5_alg».proof.Proof.Gen.ReferenceIdeal
import proofs.«139382_g2000601216510222_pallasbulk_1026_5_alg».proof.Proof.Gen.ReferenceIdeal.Frame
import proofs.«139382_g2000601216510222_pallasbulk_1026_5_alg».proof.Proof.Gen.Pre_finite_inputs
import proofs.«139382_g2000601216510222_pallasbulk_1026_5_alg».proof.Proof.KernelBlocks
import proofs.«139382_g2000601216510222_pallasbulk_1026_5_alg».proof.Proof.RefValue
import proofs.«139382_g2000601216510222_pallasbulk_1026_5_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx

/-- From memories that agree on the arguments both programs end with the specification's three arrays at the
    same token map, so with equal results. -/
theorem algebraic : Cert.algebraic_KernelIdeal_ReferenceIdeal := by
  intro m ρ m' ρ' hpre hagree
  choose ec he using fun c => PreRange.tokens_in_range (F := Ideal) _ _ _ _ _ _ _ _ (hpre c)
  have he' : ∀ (c : Dev Cert.ReferenceIdeal.nD) (p : Fin 1536),
      m' ((c : Thread Cert.ReferenceIdeal.nD Cert.ReferenceIdeal.τ).loc Cert.ReferenceIdeal.main_arg0) (ix1 p)
        = BitVec.ofNat 32 (ec c p).val := fun c p => by
    rw [(hagree c).1]; exact he c p
  refine ⟨_, _, _, Cert.KernelIdeal.Hand.run_spec m ρ ec he, ?_⟩
  refine (θ_run Cert.ReferenceIdeal.defs _ _).mono (fun r h c => ?_) (Cert.ReferenceIdeal.Hand.run_spec m' ρ' ec he')
  obtain ⟨h0, h1, h2, hk⟩ := h c
  obtain ⟨a0, a1, a2, a3, a4, a5, a6, a7⟩ := hagree c
  refine ⟨h0.trans ?_, h1.trans ?_, h2.trans ?_, hk⟩
  · rw [a1, a2, a3, a4, a5, a6, a7]
  · rw [a1, a2, a3, a4, a5]
  · rw [a1, a2, a3, a4, a5]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ (Cert.ReferenceIdeal.Hand.ok m),
  trivial,
  algebraic⟩

end Cert.Proof

end
